-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x2 : Shape := ⟨2, ![200000, 2]⟩
abbrev S2x12800000 : Shape := ⟨2, ![2, 12800000]⟩
abbrev S200000 : Shape := ⟨1, ![200000]⟩
abbrev S2x2 : Shape := ⟨2, ![2, 2]⟩
abbrev S2 : Shape := ⟨1, ![2]⟩
abbrev S2x1 : Shape := ⟨2, ![2, 1]⟩
abbrev S1 : Shape := ⟨1, ![1]⟩
abbrev S_ : Shape := ⟨0, ![]⟩

class Facts : Prop where
  bcast_S_S200000x2 : S_.BroadcastsInDim S200000x2 (![] : Fin 0 → Fin S200000x2.rank)
  reducesTo_S200000x2_S_d0_1 : S200000x2.ReducesTo [0, 1] S_
  h_S_ : 0 < S_.numel
  bcast_S_S2x2 : S_.BroadcastsInDim S2x2 (![] : Fin 0 → Fin S2x2.rank)
  reducesTo_S2x2_S_d0_1 : S2x2.ReducesTo [0, 1] S_
  bcast_S_S2 : S_.BroadcastsInDim S2 (![] : Fin 0 → Fin S2.rank)
  reducesTo_S2_S_d0 : S2.ReducesTo [0] S_
  bcast_S_S2x1 : S_.BroadcastsInDim S2x1 (![] : Fin 0 → Fin S2x1.rank)
  reducesTo_S2x1_S_d0_1 : S2x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S2x1 .f32) (main_arg10 : FVec F S1 .f32) (main_v33 : IVec S_ 1) : IVec S_ 1 :=
  let main_v34 : FVec F S2x1 .f32 := Host.absf main_arg9
  let main_cst_12 : FVec F S_ .f32 := constant S_ .f32 0x7F800000#32
  let main_v35 : FVec F S2x1 .f32 := broadcastInDim S2x1 ![] bcast_S_S2x1 main_cst_12
  let main_v36 : IVec S2x1 1 := cmpf .olt main_v34 main_v35
  let main_c_13 : IVec S_ 1 := constantI S_ 1 1#1
  let main_v37 : IVec S_ 1 := (fun x v => Host.reduce IntOp.andi x v reducesTo_S2x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S2 .f32) (main_arg7 : FVec F S2x2 .f32) (main_arg8 : FVec F S2 .f32) (main_arg9 : FVec F S2x1 .f32) (main_arg10 : FVec F S1 .f32) (main_v13 : IVec S_ 1) (main_v16 : IVec S2x2 1) : IVec S_ 1 :=
  let main_c_5 : IVec S_ 1 := constantI S_ 1 1#1
  let main_v17 : IVec S_ 1 := (fun x v => Host.reduce IntOp.andi x v reducesTo_S2x2_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S2x2 .f32 := Host.absf main_arg7
  let main_cst_8 : FVec F S_ .f32 := constant S_ .f32 0x7F800000#32
  let main_v25 : FVec F S2x2 .f32 := broadcastInDim S2x2 ![] bcast_S_S2x2 main_cst_8
  let main_v26 : IVec S2x2 1 := cmpf .olt main_v24 main_v25
  let main_c_9 : IVec S_ 1 := constantI S_ 1 1#1
  let main_v27 : IVec S_ 1 := (fun x v => Host.reduce IntOp.andi x v reducesTo_S2x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg9 main_arg10 main_v33

def fn {F : FTy → Type} [FloatOps F] (main_arg0 : FVec F S200000x2 .f32) (main_arg1 : IVec S2x12800000 32) (main_arg2 : IVec S200000 32) (main_arg3 : FVec F S2x2 .f32) (main_arg4 : FVec F S2 .f32) (main_arg5 : FVec F S2x2 .f32) (main_arg6 : FVec F S2 .f32) (main_arg7 : FVec F S2x2 .f32) (main_arg8 : FVec F S2 .f32) (main_arg9 : FVec F S2x1 .f32) (main_arg10 : FVec F S1 .f32) : IVec S_ 1 :=
  let main_v0 : FVec F S200000x2 .f32 := Host.absf main_arg0
  let main_cst : FVec F S_ .f32 := constant S_ .f32 0x7F800000#32
  let main_v1 : FVec F S200000x2 .f32 := broadcastInDim S200000x2 ![] bcast_S_S200000x2 main_cst
  let main_v2 : IVec S200000x2 1 := cmpf .olt main_v0 main_v1
  let main_c : IVec S_ 1 := constantI S_ 1 1#1
  let main_v3 : IVec S_ 1 := (fun x v => Host.reduce IntOp.andi x v reducesTo_S200000x2_S_d0_1 h_S_) main_v2 main_c
  let main_v4 : FVec F S2x2 .f32 := Host.absf main_arg3
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  let main_v8 : IVec S_ 1 := andi main_v3 main_v7
  let main_v9 : FVec F S2 .f32 := Host.absf main_arg4
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S2x2 .f32 := Host.absf main_arg5
  let main_cst_4 : FVec F S_ .f32 := constant S_ .f32 0x7F800000#32
  let main_v15 : FVec F S2x2 .f32 := broadcastInDim S2x2 ![] bcast_S_S2x2 main_cst_4
  let main_v16 : IVec S2x2 1 := cmpf .olt main_v14 main_v15
  fn_part1 (F := F) main_arg6 main_arg7 main_arg8 main_arg9 main_arg10 main_v13 main_v16
-- ==== Kernel.lean ====
abbrev S200000x2 : Shape := ⟨2, ![200000, 2]⟩
abbrev S2x12800000 : Shape := ⟨2, ![2, 12800000]⟩
abbrev S200000 : Shape := ⟨1, ![200000]⟩
abbrev S2x2 : Shape := ⟨2, ![2, 2]⟩
abbrev S2 : Shape := ⟨1, ![2]⟩
abbrev S2x1 : Shape := ⟨2, ![2, 1]⟩
abbrev S1 : Shape := ⟨1, ![1]⟩
abbrev S1x12800000 : Shape := ⟨2, ![1, 12800000]⟩
abbrev S12800000 : Shape := ⟨1, ![12800000]⟩
abbrev S13000000 : Shape := ⟨1, ![13000000]⟩
abbrev S_ : Shape := ⟨0, ![]⟩
abbrev S13000000x1 : Shape := ⟨2, ![13000000, 1]⟩
abbrev S13000000x2 : Shape := ⟨2, ![13000000, 2]⟩
abbrev S1x2 : Shape := ⟨2, ![1, 2]⟩
abbrev S204800x2 : Shape := ⟨2, ![204800, 2]⟩
abbrev S204800 : Shape := ⟨1, ![204800]⟩
abbrev S2x204800 : Shape := ⟨2, ![2, 204800]⟩
abbrev S1x204800 : Shape := ⟨2, ![1, 204800]⟩
abbrev S1x1 : Shape := ⟨2, ![1, 1]⟩
abbrev S1x512 : Shape := ⟨2, ![1, 512]⟩
abbrev S2x8192 : Shape := ⟨2, ![2, 8192]⟩
abbrev S1x8192 : Shape := ⟨2, ![1, 8192]⟩
abbrev S2x512 : Shape := ⟨2, ![2, 512]⟩
abbrev S512x8192 : Shape := ⟨2, ![512, 8192]⟩
abbrev S512 : Shape := ⟨1, ![512]⟩

abbrev nBuf : Space → Nat
  | .hbm => 128
  | .vmem => 8
  | .smem => 0
  | _ => 0

abbrev bufTy : (tb : Table) → Fin (tcTables nBuf tb) → BufTy
  | .hbm, ⟨0, _⟩ => ⟨S200000x2, .f32⟩
  | .hbm, ⟨1, _⟩ => ⟨S2x12800000, .i32⟩
  | .hbm, ⟨2, _⟩ => ⟨S200000, .i32⟩
  | .hbm, ⟨3, _⟩ => ⟨S2x2, .f32⟩
  | .hbm, ⟨4, _⟩ => ⟨S2, .f32⟩
  | .hbm, ⟨5, _⟩ => ⟨S2x2, .f32⟩
  | .hbm, ⟨6, _⟩ => ⟨S2, .f32⟩
  | .hbm, ⟨7, _⟩ => ⟨S2x2, .f32⟩
  | .hbm, ⟨8, _⟩ => ⟨S2, .f32⟩
  | .hbm, ⟨9, _⟩ => ⟨S2x1, .f32⟩
  | .hbm, ⟨10, _⟩ => ⟨S1, .f32⟩
  | .hbm, ⟨11, _⟩ => ⟨S200000, .i32⟩
  | .hbm, ⟨12, _⟩ => ⟨S1x12800000, .i32⟩
  | .hbm, ⟨13, _⟩ => ⟨S12800000, .i32⟩
  | .hbm, ⟨14, _⟩ => ⟨S13000000, .i32⟩
  | .hbm, ⟨15, _⟩ => ⟨S1x12800000, .i32⟩
  | .hbm, ⟨16, _⟩ => ⟨S12800000, .i32⟩
  | .hbm, ⟨17, _⟩ => ⟨S13000000, .i32⟩
  | .hbm, ⟨18, _⟩ => ⟨S_, .f32⟩
  | .hbm, ⟨19, _⟩ => ⟨S13000000, .f32⟩
  | .hbm, ⟨20, _⟩ => ⟨S_, .f32⟩
  | .hbm, ⟨21, _⟩ => ⟨S200000, .f32⟩
  | .hbm, ⟨22, _⟩ => ⟨S13000000x1, .i32⟩
  | .hbm, ⟨23, _⟩ => ⟨S200000, .f32⟩
  | .hbm, ⟨24, _⟩ => ⟨S_, .f32⟩
  | .hbm, ⟨25, _⟩ => ⟨S200000, .f32⟩
  | .hbm, ⟨26, _⟩ => ⟨S200000, .i1⟩
  | .hbm, ⟨27, _⟩ => ⟨S200000, .f32⟩
  | .hbm, ⟨28, _⟩ => ⟨S_, .f32⟩
  | .hbm, ⟨29, _⟩ => ⟨S200000, .f32⟩
  | .hbm, ⟨30, _⟩ => ⟨S200000, .f32⟩
  | .hbm, ⟨31, _⟩ => ⟨S_, .i32⟩
  | .hbm, ⟨32, _⟩ => ⟨S13000000, .i32⟩
  | .hbm, ⟨33, _⟩ => ⟨S13000000, .i1⟩
  | .hbm, ⟨34, _⟩ => ⟨S_, .i32⟩
  | .hbm, ⟨35, _⟩ => ⟨S13000000, .i32⟩
  | .hbm, ⟨36, _⟩ => ⟨S13000000, .i32⟩
  | .hbm, ⟨37, _⟩ => ⟨S13000000, .i32⟩
  | .hbm, ⟨38, _⟩ => ⟨S13000000x1, .i32⟩
  | .hbm, ⟨39, _⟩ => ⟨S13000000, .f32⟩
  | .hbm, ⟨40, _⟩ => ⟨S_, .i32⟩
  | .hbm, ⟨41, _⟩ => ⟨S13000000, .i32⟩
  | .hbm, ⟨42, _⟩ => ⟨S13000000, .i1⟩
  | .hbm, ⟨43, _⟩ => ⟨S_, .i32⟩
  | .hbm, ⟨44, _⟩ => ⟨S13000000, .i32⟩
  | .hbm, ⟨45, _⟩ => ⟨S13000000, .i32⟩
  | .hbm, ⟨46, _⟩ => ⟨S13000000, .i32⟩
  | .hbm, ⟨47, _⟩ => ⟨S13000000x1, .i32⟩
  | .hbm, ⟨48, _⟩ => ⟨S13000000, .f32⟩
  | .hbm, ⟨49, _⟩ => ⟨S13000000, .f32⟩
  | .hbm, ⟨50, _⟩ => ⟨S13000000x1, .f32⟩
  | .hbm, ⟨51, _⟩ => ⟨S200000x2, .f32⟩
  | .hbm, ⟨52, _⟩ => ⟨S_, .i32⟩
  | .hbm, ⟨53, _⟩ => ⟨S13000000, .i32⟩
  | .hbm, ⟨54, _⟩ => ⟨S13000000, .i1⟩
  | .hbm, ⟨55, _⟩ => ⟨S_, .i32⟩
  | .hbm, ⟨56, _⟩ => ⟨S13000000, .i32⟩
  | .hbm, ⟨57, _⟩ => ⟨S13000000, .i32⟩
  | .hbm, ⟨58, _⟩ => ⟨S13000000, .i32⟩
  | .hbm, ⟨59, _⟩ => ⟨S13000000x1, .i32⟩
  | .hbm, ⟨60, _⟩ => ⟨S13000000x2, .f32⟩
  | .hbm, ⟨61, _⟩ => ⟨S13000000x2, .f32⟩
  | .hbm, ⟨62, _⟩ => ⟨S13000000x2, .f32⟩
  | .hbm, ⟨63, _⟩ => ⟨S_, .f32⟩
  | .hbm, ⟨64, _⟩ => ⟨S200000x2, .f32⟩
  | .hbm, ⟨65, _⟩ => ⟨S13000000x1, .i32⟩
  | .hbm, ⟨66, _⟩ => ⟨S200000x2, .f32⟩
  | .hbm, ⟨67, _⟩ => ⟨S1x2, .f32⟩
  | .hbm, ⟨68, _⟩ => ⟨S200000x2, .f32⟩
  | .hbm, ⟨69, _⟩ => ⟨S200000x2, .f32⟩
  | .hbm, ⟨70, _⟩ => ⟨S_, .f32⟩
  | .hbm, ⟨71, _⟩ => ⟨S200000x2, .f32⟩
  | .hbm, ⟨72, _⟩ => ⟨S200000x2, .f32⟩
  | .hbm, ⟨73, _⟩ => ⟨S200000x2, .f32⟩
  | .hbm, ⟨74, _⟩ => ⟨S_, .i32⟩
  | .hbm, ⟨75, _⟩ => ⟨S13000000, .i32⟩
  | .hbm, ⟨76, _⟩ => ⟨S13000000, .i1⟩
  | .hbm, ⟨77, _⟩ => ⟨S_, .i32⟩
  | .hbm, ⟨78, _⟩ => ⟨S13000000, .i32⟩
  | .hbm, ⟨79, _⟩ => ⟨S13000000, .i32⟩
  | .hbm, ⟨80, _⟩ => ⟨S13000000, .i32⟩
  | .hbm, ⟨81, _⟩ => ⟨S13000000x1, .i32⟩
  | .hbm, ⟨82, _⟩ => ⟨S13000000x2, .f32⟩
  | .hbm, ⟨83, _⟩ => ⟨S13000000x2, .f32⟩
  | .hbm, ⟨84, _⟩ => ⟨S13000000x2, .f32⟩
  | .hbm, ⟨85, _⟩ => ⟨S_, .f32⟩
  | .hbm, ⟨86, _⟩ => ⟨S200000x2, .f32⟩
  | .hbm, ⟨87, _⟩ => ⟨S13000000x1, .i32⟩
  | .hbm, ⟨88, _⟩ => ⟨S200000x2, .f32⟩
  | .hbm, ⟨89, _⟩ => ⟨S1x2, .f32⟩
  | .hbm, ⟨90, _⟩ => ⟨S200000x2, .f32⟩
  | .hbm, ⟨91, _⟩ => ⟨S200000x2, .f32⟩
  | .hbm, ⟨92, _⟩ => ⟨S_, .f32⟩
  | .hbm, ⟨93, _⟩ => ⟨S200000x2, .f32⟩
  | .hbm, ⟨94, _⟩ => ⟨S200000x2, .f32⟩
  | .hbm, ⟨95, _⟩ => ⟨S200000x2, .f32⟩
  | .hbm, ⟨96, _⟩ => ⟨S_, .i32⟩
  | .hbm, ⟨97, _⟩ => ⟨S13000000, .i32⟩
  | .hbm, ⟨98, _⟩ => ⟨S13000000, .i1⟩
  | .hbm, ⟨99, _⟩ => ⟨S_, .i32⟩
  | .hbm, ⟨100, _⟩ => ⟨S13000000, .i32⟩
  | .hbm, ⟨101, _⟩ => ⟨S13000000, .i32⟩
  | .hbm, ⟨102, _⟩ => ⟨S13000000, .i32⟩
  | .hbm, ⟨103, _⟩ => ⟨S13000000x1, .i32⟩
  | .hbm, ⟨104, _⟩ => ⟨S13000000x2, .f32⟩
  | .hbm, ⟨105, _⟩ => ⟨S13000000x2, .f32⟩
  | .hbm, ⟨106, _⟩ => ⟨S13000000x2, .f32⟩
  | .hbm, ⟨107, _⟩ => ⟨S_, .f32⟩
  | .hbm, ⟨108, _⟩ => ⟨S200000x2, .f32⟩
  | .hbm, ⟨109, _⟩ => ⟨S13000000x1, .i32⟩
  | .hbm, ⟨110, _⟩ => ⟨S200000x2, .f32⟩
  | .hbm, ⟨111, _⟩ => ⟨S1x2, .f32⟩
  | .hbm, ⟨112, _⟩ => ⟨S200000x2, .f32⟩
  | .hbm, ⟨113, _⟩ => ⟨S200000x2, .f32⟩
  | .hbm, ⟨114, _⟩ => ⟨S_, .f32⟩
  | .hbm, ⟨115, _⟩ => ⟨S200000x2, .f32⟩
  | .hbm, ⟨116, _⟩ => ⟨S200000x2, .f32⟩
  | .hbm, ⟨117, _⟩ => ⟨S_, .i32⟩
  | .hbm, ⟨118, _⟩ => ⟨S_, .f32⟩
  | .hbm, ⟨119, _⟩ => ⟨S204800x2, .f32⟩
  | .hbm, ⟨120, _⟩ => ⟨S_, .i32⟩
  | .hbm, ⟨121, _⟩ => ⟨S_, .i32⟩
  | .hbm, ⟨122, _⟩ => ⟨S204800, .i32⟩
  | .hbm, ⟨123, _⟩ => ⟨S2x204800, .f32⟩
  | .hbm, ⟨124, _⟩ => ⟨S1x204800, .i32⟩
  | .hbm, ⟨125, _⟩ => ⟨S1x1, .f32⟩
  | .hbm, ⟨126, _⟩ => ⟨S1x512, .f32⟩
  | .hbm, ⟨127, _⟩ => ⟨S512, .f32⟩
  | .local _ .vmem, ⟨0, _⟩ => ⟨S2x8192, .f32⟩
  | .local _ .vmem, ⟨1, _⟩ => ⟨S2x8192, .f32⟩
  | .local _ .vmem, ⟨2, _⟩ => ⟨S1x8192, .i32⟩
  | .local _ .vmem, ⟨3, _⟩ => ⟨S1x8192, .i32⟩
  | .local _ .vmem, ⟨4, _⟩ => ⟨S2x1, .f32⟩
  | .local _ .vmem, ⟨5, _⟩ => ⟨S1x1, .f32⟩
  | .local _ .vmem, ⟨6, _⟩ => ⟨S1x512, .f32⟩
  | .local _ .vmem, ⟨7, _⟩ => ⟨S2x512, .f32⟩
  | _, _ => ⟨S200000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call2_cst : Ref sig .tc := ⟨.hbm, 92, rfl⟩
abbrev main_call2_v0 : Ref sig .tc := ⟨.hbm, 93, rfl⟩
abbrev main_v64 : Ref sig .tc := ⟨.hbm, 94, rfl⟩
abbrev main_v65 : Ref sig .tc := ⟨.hbm, 95, rfl⟩
abbrev main_c_12 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_14 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call3_cst : Ref sig .tc := ⟨.hbm, 114, rfl⟩
abbrev main_call3_v0 : Ref sig .tc := ⟨.hbm, 115, rfl⟩
abbrev main_v81 : Ref sig .tc := ⟨.hbm, 116, rfl⟩
abbrev main_c_15 : Ref sig .tc := ⟨.hbm, 117, rfl⟩
abbrev main_call4_v0 : Ref sig .tc := ⟨.hbm, 118, rfl⟩
abbrev main_v82 : Ref sig .tc := ⟨.hbm, 119, rfl⟩
abbrev main_c_16 : Ref sig .tc := ⟨.hbm, 120, rfl⟩
abbrev main_call5_v0 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v18 : BitVec 1 := Scalar.cmpi .eq arg0 c24_i32
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  slices_S2x12800000_S1x12800000_0_0 : S2x12800000.Slices ![0, 0] S1x12800000
  shapeCasts_S1x12800000_S12800000 : S1x12800000.ShapeCasts S12800000
  concatenates_S12800000_S200000_S13000000_d0 : Shape.Concatenates [S12800000, S200000] S13000000 0
  slices_S2x12800000_S1x12800000_1_0 : S2x12800000.Slices ![1, 0] S1x12800000
  bcast_S_S13000000 : S_.BroadcastsInDim S13000000 (![] : Fin 0 → Fin S13000000.rank)
  bcast_S_S200000 : S_.BroadcastsInDim S200000 (![] : Fin 0 → Fin S200000.rank)
  bcast_S13000000_S13000000x1_0 : S13000000.BroadcastsInDim S13000000x1 (![0] : Fin 1 → Fin S13000000x1.rank)
  bcast_S13000000x1_S13000000x2_0_1 : S13000000x1.BroadcastsInDim S13000000x2 (![0, 1] : Fin 2 → Fin S13000000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  pads_S200000x2_S204800x2_048000_000 : S200000x2.Pads (![0, 0] : Fin 2 → Nat) ![4800, 0] ![0, 0] S204800x2
  h_S_ : 0 < S_.numel
  pads_S200000_S204800_048000 : S200000.Pads (![0] : Fin 1 → Nat) ![4800] ![0] S204800
  transposes_S204800x2_S2x204800_1_0 : S204800x2.Transposes [1, 0] S2x204800
  bcast_S204800_S1x204800_1 : S204800.BroadcastsInDim S1x204800 (![1] : Fin 1 → Fin S1x204800.rank)
  shapeCasts_S1_S1x1 : S1.ShapeCasts S1x1
  inb_S2x512_S2x512_0_0 : ∀ a, (![0, 0] : Fin 2 → Nat) a + S2x512.size a ≤ S2x512.size a
  h_S2x512 : 0 < S2x512.numel
  shapeCasts_S2x512_S2x512 : S2x512.ShapeCasts S2x512
  iota_S512x8192_d0_w32 : S512x8192.Iotas .tc 32 [0]
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S512x8192 : S1x8192.Broadcasts S512x8192
  natLt_1_32 : 1 < 32
  inb_S2x8192_S2x8192_0_0 : ∀ a, (![0, 0] : Fin 2 → Nat) a + S2x8192.size a ≤ S2x8192.size a
  h_S2x8192 : 0 < S2x8192.numel
  shapeCasts_S2x8192_S2x8192 : S2x8192.ShapeCasts S2x8192
  inb_S2x1_S2x1_0_0 : ∀ a, (![0, 0] : Fin 2 → Nat) a + S2x1.size a ≤ S2x1.size a
  h_S2x1 : 0 < S2x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x512 : S1x1.Broadcasts S1x512
  inb_S1x512_S1x512_0_0 : ∀ a, (![0, 0] : Fin 2 → Nat) a + S1x512.size a ≤ S1x512.size a
  h_S1x512 : 0 < S1x512.numel
  shapeCasts_S1x512_S512 : S1x512.ShapeCasts S512
  scatter_S200000_S13000000x1_S13000000_n_0_0_1_wf : ScatterDims.WF S200000 S13000000x1 S13000000 [] [0] [0] 1
  gather_S200000_S13000000x1_S13000000_n_0_n_n_0_1_1_wf : GatherDims.WF S200000 S13000000x1 S13000000 [] [0] [] [0] [] 1 ![1]
  dot_S200000x2_S2x2_S200000x2_1_0_0_1_n_n_wf : DotDims.WF S200000x2 S2x2 S200000x2 [1] [0] [0] [1] [] []
  gather_S200000x2_S13000000x1_S13000000x2_1_0_n_n_0_1_12_wf : GatherDims.WF S200000x2 S13000000x1 S13000000x2 [1] [0] [] [0] [] 1 ![1, 2]
  scatter_S200000x2_S13000000x1_S13000000x2_1_0_0_1_wf : ScatterDims.WF S200000x2 S13000000x1 S13000000x2 [1] [0] [0] 1
  dot_S2x8192_S512x8192_S2x512_1_1_0_0_n_n_wf : DotDims.WF S2x8192 S512x8192 S2x512 [1] [1] [0] [0] [] []
  dot_S2x1_S2x512_S1x512_0_0_1_1_n_n_wf : DotDims.WF S2x1 S2x512 S1x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8192.size a ≤ S2x204800.size a
  hwx0_0 : ∀ i : grid0.Coords, EltTy.bits .f32 = 32 ∨ (Rect.block (s := S2x204800) S2x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x204800.size a
  hwx0_1 : ∀ i : grid0.Coords, EltTy.bits .i32 = 32 ∨ (Rect.block (s := S1x204800) S1x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1.size a ≤ S2x1.size a
  hwx0_2 : ∀ i : grid0.Coords, EltTy.bits .f32 = 32 ∨ (Rect.block (s := S2x1) S2x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)

variable [Facts₀]

def scatter_S200000_S13000000x1_S13000000_n_0_0_1 : ScatterDims S200000 S13000000x1 S13000000 where
  updateWindowDims := []
  insertedWindowDims := [0]
  scatterDimsToOperandDims := [0]
  indexVectorDim := 1
  wf := scatter_S200000_S13000000x1_S13000000_n_0_0_1_wf
def gather_S200000_S13000000x1_S13000000_n_0_n_n_0_1_1 : GatherDims S200000 S13000000x1 S13000000 where
  offsetDims := []
  collapsedSliceDims := [0]
  operandBatchingDims := []
  startIndicesBatchingDims := []
  startIndexMap := [0]
  indexVectorDim := 1
  sliceSizes := ![1]
  wf := gather_S200000_S13000000x1_S13000000_n_0_n_n_0_1_1_wf
def dot_S200000x2_S2x2_S200000x2_1_0_0_1_n_n : DotDims S200000x2 S2x2 S200000x2 where
  lhsContracting := [1]
  rhsContracting := [0]
  lhsNonContracting := [0]
  rhsNonContracting := [1]
  lhsBatch := []
  rhsBatch := []
  wf := dot_S200000x2_S2x2_S200000x2_1_0_0_1_n_n_wf
def gather_S200000x2_S13000000x1_S13000000x2_1_0_n_n_0_1_12 : GatherDims S200000x2 S13000000x1 S13000000x2 where
  offsetDims := [1]
  collapsedSliceDims := [0]
  operandBatchingDims := []
  startIndicesBatchingDims := []
  startIndexMap := [0]
  indexVectorDim := 1
  sliceSizes := ![1, 2]
  wf := gather_S200000x2_S13000000x1_S13000000x2_1_0_n_n_0_1_12_wf
def scatter_S200000x2_S13000000x1_S13000000x2_1_0_0_1 : ScatterDims S200000x2 S13000000x1 S13000000x2 where
  updateWindowDims := [1]
  insertedWindowDims := [0]
  scatterDimsToOperandDims := [0]
  indexVectorDim := 1
  wf := scatter_S200000x2_S13000000x1_S13000000x2_1_0_0_1_wf
def dot_S2x8192_S512x8192_S2x512_1_1_0_0_n_n : DotDims S2x8192 S512x8192 S2x512 where
  lhsContracting := [1]
  rhsContracting := [1]
  lhsNonContracting := [0]
  rhsNonContracting := [0]
  lhsBatch := []
  rhsBatch := []
  wf := dot_S2x8192_S512x8192_S2x512_1_1_0_0_n_n_wf
def dot_S2x1_S2x512_S1x512_0_0_1_1_n_n : DotDims S2x1 S2x512 S1x512 where
  lhsContracting := [0]
  rhsContracting := [0]
  lhsNonContracting := [1]
  rhsNonContracting := [1]
  lhsBatch := []
  rhsBatch := []
  wf := dot_S2x1_S2x512_S1x512_0_0_1_1_n_n_wf

abbrev win0_0 : Pipeline.Window sig grid0 :=
  Pipeline.Window.ofSpec (Memref.whole main_v84) S2x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v85) S1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S2x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v86) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v87) S1x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S200000x2 : Shape := ⟨2, ![200000, 2]⟩
abbrev S2x12800000 : Shape := ⟨2, ![2, 12800000]⟩
abbrev S200000 : Shape := ⟨1, ![200000]⟩
abbrev S2x2 : Shape := ⟨2, ![2, 2]⟩
abbrev S2 : Shape := ⟨1, ![2]⟩
abbrev S2x1 : Shape := ⟨2, ![2, 1]⟩
abbrev S1 : Shape := ⟨1, ![1]⟩
abbrev S1x12800000 : Shape := ⟨2, ![1, 12800000]⟩
abbrev S12800000 : Shape := ⟨1, ![12800000]⟩
abbrev S13000000 : Shape := ⟨1, ![13000000]⟩
abbrev S_ : Shape := ⟨0, ![]⟩
abbrev S13000000x1 : Shape := ⟨2, ![13000000, 1]⟩
abbrev S13000000x2 : Shape := ⟨2, ![13000000, 2]⟩
abbrev S1x2 : Shape := ⟨2, ![1, 2]⟩
abbrev S512x2 : Shape := ⟨2, ![512, 2]⟩
abbrev S200000x1 : Shape := ⟨2, ![200000, 1]⟩
abbrev S512x1 : Shape := ⟨2, ![512, 1]⟩
abbrev S1x1 : Shape := ⟨2, ![1, 1]⟩
abbrev S512 : Shape := ⟨1, ![512]⟩

abbrev nBuf : Space → Nat
  | .hbm => 129
  | .vmem => 0
  | .smem => 0
  | _ => 0

abbrev hbmTy0_0 (i : Nat) : BufTy := match i % 128 with
  | 0 => ⟨S200000x2, .f32⟩
  | 1 => ⟨S2x12800000, .i32⟩
  | 2 => ⟨S200000, .i32⟩
  | 3 => ⟨S2x2, .f32⟩
  | 4 => ⟨S2, .f32⟩
  | 5 => ⟨S2x2, .f32⟩
  | 6 => ⟨S2, .f32⟩
  | 7 => ⟨S2x2, .f32⟩
  | 8 => ⟨S2, .f32⟩
  | 9 => ⟨S2x1, .f32⟩
  | 10 => ⟨S1, .f32⟩
  | 11 => ⟨S200000, .i32⟩
  | 12 => ⟨S1x12800000, .i32⟩
  | 13 => ⟨S12800000, .i32⟩
  | 14 => ⟨S13000000, .i32⟩
  | 15 => ⟨S1x12800000, .i32⟩
  | 16 => ⟨S12800000, .i32⟩
  | 17 => ⟨S13000000, .i32⟩
  | 18 => ⟨S_, .f32⟩
  | 19 => ⟨S13000000, .f32⟩
  | 20 => ⟨S_, .f32⟩
  | 21 => ⟨S200000, .f32⟩
  | 22 => ⟨S13000000x1, .i32⟩
  | 23 => ⟨S200000, .f32⟩
  | 24 => ⟨S_, .f32⟩
  | 25 => ⟨S200000, .f32⟩
  | 26 => ⟨S200000, .i1⟩
  | 27 => ⟨S200000, .f32⟩
  | 28 => ⟨S_, .f32⟩
  | 29 => ⟨S_, .f32⟩
  | 30 => ⟨S200000, .f32⟩
  | 31 => ⟨S200000, .f32⟩
  | 32 => ⟨S_, .i32⟩
  | 33 => ⟨S13000000, .i32⟩
  | 34 => ⟨S13000000, .i1⟩
  | 35 => ⟨S_, .i32⟩
  | 36 => ⟨S13000000, .i32⟩
  | 37 => ⟨S13000000, .i32⟩
  | 38 => ⟨S13000000, .i32⟩
  | 39 => ⟨S13000000x1, .i32⟩
  | 40 => ⟨S13000000, .f32⟩
  | 41 => ⟨S_, .i32⟩
  | 42 => ⟨S13000000, .i32⟩
  | 43 => ⟨S13000000, .i1⟩
  | 44 => ⟨S_, .i32⟩
  | 45 => ⟨S13000000, .i32⟩
  | 46 => ⟨S13000000, .i32⟩
  | 47 => ⟨S13000000, .i32⟩
  | 48 => ⟨S13000000x1, .i32⟩
  | 49 => ⟨S13000000, .f32⟩
  | 50 => ⟨S13000000, .f32⟩
  | 51 => ⟨S200000x2, .f32⟩
  | 52 => ⟨S_, .i32⟩
  | 53 => ⟨S13000000, .i32⟩
  | 54 => ⟨S13000000, .i1⟩
  | 55 => ⟨S_, .i32⟩
  | 56 => ⟨S13000000, .i32⟩
  | 57 => ⟨S13000000, .i32⟩
  | 58 => ⟨S13000000, .i32⟩
  | 59 => ⟨S13000000x1, .i32⟩
  | 60 => ⟨S13000000x2, .f32⟩
  | 61 => ⟨S13000000x1, .f32⟩
  | 62 => ⟨S13000000x2, .f32⟩
  | 63 => ⟨S13000000x2, .f32⟩
  | 64 => ⟨S_, .f32⟩
  | 65 => ⟨S200000x2, .f32⟩
  | 66 => ⟨S13000000x1, .i32⟩
  | 67 => ⟨S200000x2, .f32⟩
  | 68 => ⟨S1x2, .f32⟩
  | 69 => ⟨S200000x2, .f32⟩
  | 70 => ⟨S200000x2, .f32⟩
  | 71 => ⟨S_, .f32⟩
  | 72 => ⟨S200000x2, .f32⟩
  | 73 => ⟨S200000x2, .f32⟩
  | 74 => ⟨S200000x2, .f32⟩
  | 75 => ⟨S_, .i32⟩
  | 76 => ⟨S13000000, .i32⟩
  | 77 => ⟨S13000000, .i1⟩
  | 78 => ⟨S_, .i32⟩
  | 79 => ⟨S13000000, .i32⟩
  | 80 => ⟨S13000000, .i32⟩
  | 81 => ⟨S13000000, .i32⟩
  | 82 => ⟨S13000000x1, .i32⟩
  | 83 => ⟨S13000000x2, .f32⟩
  | 84 => ⟨S13000000x1, .f32⟩
  | 85 => ⟨S13000000x2, .f32⟩
  | 86 => ⟨S13000000x2, .f32⟩
  | 87 => ⟨S_, .f32⟩
  | 88 => ⟨S200000x2, .f32⟩
  | 89 => ⟨S13000000x1, .i32⟩
  | 90 => ⟨S200000x2, .f32⟩
  | 91 => ⟨S1x2, .f32⟩
  | 92 => ⟨S200000x2, .f32⟩
  | 93 => ⟨S200000x2, .f32⟩
  | 94 => ⟨S_, .f32⟩
  | 95 => ⟨S200000x2, .f32⟩
  | 96 => ⟨S200000x2, .f32⟩
  | 97 => ⟨S200000x2, .f32⟩
  | 98 => ⟨S_, .i32⟩
  | 99 => ⟨S13000000, .i32⟩
  | 100 => ⟨S13000000, .i1⟩
  | 101 => ⟨S_, .i32⟩
  | 102 => ⟨S13000000, .i32⟩
  | 103 => ⟨S13000000, .i32⟩
  | 104 => ⟨S13000000, .i32⟩
  | 105 => ⟨S13000000x1, .i32⟩
  | 106 => ⟨S13000000x2, .f32⟩
  | 107 => ⟨S13000000x1, .f32⟩
  | 108 => ⟨S13000000x2, .f32⟩
  | 109 => ⟨S13000000x2, .f32⟩
  | 110 => ⟨S_, .f32⟩
  | 111 => ⟨S200000x2, .f32⟩
  | 112 => ⟨S13000000x1, .i32⟩
  | 113 => ⟨S200000x2, .f32⟩
  | 114 => ⟨S1x2, .f32⟩
  | 115 => ⟨S200000x2, .f32⟩
  | 116 => ⟨S200000x2, .f32⟩
  | 117 => ⟨S_, .f32⟩
  | 118 => ⟨S200000x2, .f32⟩
  | 119 => ⟨S200000x2, .f32⟩
  | 120 => ⟨S_, .f32⟩
  | 121 => ⟨S512x2, .f32⟩
  | 122 => ⟨S200000x1, .i32⟩
  | 123 => ⟨S512x2, .f32⟩
  | 124 => ⟨S512x1, .f32⟩
  | 125 => ⟨S1x1, .f32⟩
  | 126 => ⟨S512x1, .f32⟩
  | 127 => ⟨S512x1, .f32⟩
  | _ => ⟨S200000x2, .f32⟩

abbrev hbmTy0_1 (i : Nat) : BufTy := match i % 128 with
  | 0 => ⟨S512, .f32⟩
  | _ => ⟨S200000x2, .f32⟩

abbrev hbmTy (i : Nat) : BufTy := match i / 128 with
  | 0 => hbmTy0_0 i
  | 1 => hbmTy0_1 i
  | _ => ⟨S200000x2, .f32⟩

abbrev bufTy : (tb : Table) → Fin (tcTables nBuf tb) → BufTy
  | .hbm, ⟨i, _⟩ => hbmTy i
  | _, _ => ⟨S200000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩

abbrev nD : Nat := 1
abbrev τ : Topo := Topo.v7x

variable {F : FTy → Type} [FloatOps F]

class Facts₀ : Prop where
  slices_S2x12800000_S1x12800000_0_0 : S2x12800000.Slices ![0, 0] S1x12800000
  shapeCasts_S1x12800000_S12800000 : S1x12800000.ShapeCasts S12800000
  concatenates_S12800000_S200000_S13000000_d0 : Shape.Concatenates [S12800000, S200000] S13000000 0
  slices_S2x12800000_S1x12800000_1_0 : S2x12800000.Slices ![1, 0] S1x12800000
  bcast_S_S13000000 : S_.BroadcastsInDim S13000000 (![] : Fin 0 → Fin S13000000.rank)
  bcast_S_S200000 : S_.BroadcastsInDim S200000 (![] : Fin 0 → Fin S200000.rank)
  bcast_S13000000_S13000000x1_0 : S13000000.BroadcastsInDim S13000000x1 (![0] : Fin 1 → Fin S13000000x1.rank)
  bcast_S13000000x1_S13000000x2_0_1 : S13000000x1.BroadcastsInDim S13000000x2 (![0, 1] : Fin 2 → Fin S13000000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  bcast_S_S512x2 : S_.BroadcastsInDim S512x2 (![] : Fin 0 → Fin S512x2.rank)
  bcast_S200000_S200000x1_0 : S200000.BroadcastsInDim S200000x1 (![0] : Fin 1 → Fin S200000x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  scatter_S200000_S13000000x1_S13000000_n_0_0_1_wf : ScatterDims.WF S200000 S13000000x1 S13000000 [] [0] [0] 1
  gather_S200000_S13000000x1_S13000000_n_0_n_n_0_1_1_wf : GatherDims.WF S200000 S13000000x1 S13000000 [] [0] [] [0] [] 1 ![1]
  dot_S200000x2_S2x2_S200000x2_1_0_0_1_n_n_wf : DotDims.WF S200000x2 S2x2 S200000x2 [1] [0] [0] [1] [] []
  gather_S200000x2_S13000000x1_S13000000x2_1_0_n_n_0_1_12_wf : GatherDims.WF S200000x2 S13000000x1 S13000000x2 [1] [0] [] [0] [] 1 ![1, 2]
  scatter_S200000x2_S13000000x1_S13000000x2_1_0_0_1_wf : ScatterDims.WF S200000x2 S13000000x1 S13000000x2 [1] [0] [0] 1
  scatter_S512x2_S200000x1_S200000x2_1_0_0_1_wf : ScatterDims.WF S512x2 S200000x1 S200000x2 [1] [0] [0] 1
  dot_S512x2_S2x1_S512x1_1_0_0_1_n_n_wf : DotDims.WF S512x2 S2x1 S512x1 [1] [0] [0] [1] [] []

variable [Facts₀]

def scatter_S200000_S13000000x1_S13000000_n_0_0_1 : ScatterDims S200000 S13000000x1 S13000000 where
  updateWindowDims := []
  insertedWindowDims := [0]
  scatterDimsToOperandDims := [0]
  indexVectorDim := 1
  wf := scatter_S200000_S13000000x1_S13000000_n_0_0_1_wf
def gather_S200000_S13000000x1_S13000000_n_0_n_n_0_1_1 : GatherDims S200000 S13000000x1 S13000000 where
  offsetDims := []
  collapsedSliceDims := [0]
  operandBatchingDims := []
  startIndicesBatchingDims := []
  startIndexMap := [0]
  indexVectorDim := 1
  sliceSizes := ![1]
  wf := gather_S200000_S13000000x1_S13000000_n_0_n_n_0_1_1_wf
def dot_S200000x2_S2x2_S200000x2_1_0_0_1_n_n : DotDims S200000x2 S2x2 S200000x2 where
  lhsContracting := [1]
  rhsContracting := [0]
  lhsNonContracting := [0]
  rhsNonContracting := [1]
  lhsBatch := []
  rhsBatch := []
  wf := dot_S200000x2_S2x2_S200000x2_1_0_0_1_n_n_wf
def gather_S200000x2_S13000000x1_S13000000x2_1_0_n_n_0_1_12 : GatherDims S200000x2 S13000000x1 S13000000x2 where
  offsetDims := [1]
  collapsedSliceDims := [0]
  operandBatchingDims := []
  startIndicesBatchingDims := []
  startIndexMap := [0]
  indexVectorDim := 1
  sliceSizes := ![1, 2]
  wf := gather_S200000x2_S13000000x1_S13000000x2_1_0_n_n_0_1_12_wf
def scatter_S200000x2_S13000000x1_S13000000x2_1_0_0_1 : ScatterDims S200000x2 S13000000x1 S13000000x2 where
  updateWindowDims := [1]
  insertedWindowDims := [0]
  scatterDimsToOperandDims := [0]
  indexVectorDim := 1
  wf := scatter_S200000x2_S13000000x1_S13000000x2_1_0_0_1_wf
def scatter_S512x2_S200000x1_S200000x2_1_0_0_1 : ScatterDims S512x2 S200000x1 S200000x2 where
  updateWindowDims := [1]
  insertedWindowDims := [0]
  scatterDimsToOperandDims := [0]
  indexVectorDim := 1
  wf := scatter_S512x2_S200000x1_S200000x2_1_0_0_1_wf
def dot_S512x2_S2x1_S512x1_1_0_0_1_n_n : DotDims S512x2 S2x1 S512x1 where
  lhsContracting := [1]
  rhsContracting := [0]
  lhsNonContracting := [0]
  rhsNonContracting := [1]
  lhsBatch := []
  rhsBatch := []
  wf := dot_S512x2_S2x1_S512x1_1_0_0_1_n_n_wf

class Facts : Prop extends Facts₀ where

variable [Facts]
-- ==== Proof.PoolSpec.lean ====
/-
  The pooled head, as one function of the node features.

  After the three graph-convolution layers every node n of the 200000 carries two features h(n, 0), h(n, 1) and a graph
  id word b(n). Global add pooling sums, for each graph g of the 512 and each feature d, the feature d of the nodes
  whose id reads g as a signed integer (an id outside 0 … 511 belongs to no graph and is dropped). The linear head then
  takes, for graph g, the two pooled features against the two weights wr(0), wr(1) and adds the bias br. Both programs
  compute this function of (h, b, wr, br); the kernel by a one-hot matrix product accumulated over blocks of nodes, the
  reference by an accumulating scatter followed by a small matrix product.
-/
import Idealize.ShloMosaic.PureOps.Ideal
import Idealize.ShloMosaic.Lib.ValueIdx

noncomputable section

open scoped BigOperators

namespace Cert.PoolSpec

open Idealize.ShloMosaic Idealize.ShloMosaic.ValueIdx

/-- Feature d pooled over the nodes of graph g: the sum of h(n, d) over the nodes n whose id word reads g. -/
def pooled (h : (⟨2, ![200000, 2]⟩ : Shape).Idx → EReal) (b : (⟨1, ![200000]⟩ : Shape).Idx → BitVec 32)
    (g : ℕ) (d : Fin 2) : EReal :=
  ∑ n : Fin 200000, if (b (ix1 n)).toInt = (g : ℤ) then h (ix2 n d) else 0

/-- The head's value for graph j: the pooled features against the weights, plus the bias. -/
def head (h : (⟨2, ![200000, 2]⟩ : Shape).Idx → EReal) (b : (⟨1, ![200000]⟩ : Shape).Idx → BitVec 32)
    (wr : (⟨2, ![2, 1]⟩ : Shape).Idx → EReal) (br : (⟨1, ![1]⟩ : Shape).Idx → EReal) :
    (⟨1, ![512]⟩ : Shape).Idx → EReal :=
  fun j => (∑ d : Fin 2, pooled h b (j 0).val d * wr (ix2 d (0 : Fin 1))) + br (ix1 (0 : Fin 1))

end Cert.PoolSpec

end
-- ==== Proof.LibScatterAddRows.lean ====
/-
  A row-wise accumulating scatter read at an entry, at the ideal values.

  The host's accumulating scatter of an [N, D] array of update rows into a [C, D] operand by an [N, 1] column of row
  indices (the update's second axis the window, the operand's first axis inserted and scattered to, the index vector
  on the indices' second axis) sends update row n whole to operand row idx(n), the index word read as a signed integer and
  not clamped; a row whose index is below 0 or not below C is dropped. So entry (k, e) of the result is the operand's
  entry plus the sum over the rows n of: update entry (n, e) when idx(n) is k, zero otherwise. The scatter of an [N]
  vector of updates into a [C] operand by the same column of indices reads the same way at entry k.

  The road: an update index lands at a given operand index exactly when, on every operand axis, the window's start plus
  the window coordinate is that index's coordinate (`resultIdx?_eq_some_iff`, for any dimension numbers). For these
  dimension numbers the start is the index word on the scattered axis and zero on the window axis, and the window
  coordinate is zero on the inserted axis and the update's column on the window axis; so update (n, e') lands at (k, e)
  exactly when idx(n) reads k and e' is e. The filtered sum over the update indices is then the double sum over rows and
  columns of an `if`, and the inner sum over the columns has one term.
-/
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

/-- An update index lands at i exactly when, on every operand axis, the window's start plus the window coordinate is
    i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

/-- The index word an update row reads: the column of indices at (row, 0). -/
private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the row's index word, read signed. -/
private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

/-- On the window axis the window starts at zero. -/
private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

/-- The inserted axis has window coordinate zero. -/
private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

/-- The window axis has the update's column as window coordinate. -/
private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

/-- Update index j lands at (k, e) exactly when its row's index word reads k and its column is e. -/
theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

/-- The index word an update reads: the column of indices at (its position, 0). -/
private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the operand's one axis the window starts at the update's index word, read signed. -/
private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

/-- The operand's one axis is inserted: its window coordinate is zero. -/
private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

/-- Update index j lands at k exactly when its index word reads k. -/
theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

/-- Rows of width D accumulated into a [C, D] operand by an [N, 1] column of row indices, read at (k, e). -/
theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

/-- Scalars accumulated into a [C] operand by an [N, 1] column of indices, read at k. -/
theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.RefPool.lean ====
import proofs.«415151_j36129264894520_2_alg».proof.Defs
import proofs.«415151_j36129264894520_2_alg».proof.Proof.RefRunPatched
import proofs.«415151_j36129264894520_2_alg».proof.Proof.RefReadPatched
import proofs.«415151_j36129264894520_2_alg».proof.Proof.PoolSpec
import proofs.«415151_j36129264894520_2_alg».proof.Proof.LibScatterAddRows
import Idealize.ShloMosaic.Lib.ValueIdx
import Idealize.ShloMosaic.PureOps.Ideal.Laws
/-
  The reference's result is the pooled head of its own third-layer features.

  After its three graph-convolution layers the reference holds the features h : [200000, 2]. It pools them by an
  accumulating scatter into a zero [512, 2] operand, the row of node n sent whole to the row its id word b(n) reads as a
  signed integer (a row whose id is outside 0 … 511 is dropped); so entry (g, d) of the scatter is zero plus the sum over
  the nodes n of h(n, d) where b(n) reads g, which is the pooled feature. The head is a matrix product of the pooled
  [512, 2] array with the [2, 1] weights, read at (g, 0) as a sum over the two features, plus the bias broadcast to
  [512, 1]; the final reshape to [512] reads row g at (g, 0). The features h themselves stay opaque: every step below
  holds for any [200000, 2] array in their place.
-/

noncomputable section

open scoped BigOperators

namespace Cert.RefPool

open Cert.ReferenceIdeal Cert.ReferenceIdeal.Gen Cert.ReferenceIdeal.Read Idealize.ShloMosaic Idealize.ShloMosaic.ValueIdx

/-- The scatter's operand is zero at every entry. -/
theorem zero_operand_apply (i : S512x2.Idx) : (val_main_v84 (F := Ideal) i : EReal) = 0 := by
  rw [val_main_v84_apply, val_main_cst_15_apply]
  exact Ideal.ofBits_zero_f32

/-- The column of ids at (n, 0) is the id word of node n. -/
theorem ids_column_apply (x2 : (⟨S200000, .i32⟩ : BufTy).Contents (Elt Ideal)) (n : Fin 200000) :
    val_main_v85 (F := Ideal) x2 (ix2 n (0 : Fin 1)) = x2 (ix1 n) := by
  rw [val_main_v85_apply]
  congr 1
  funext a
  match a with
  | ⟨0, _⟩ => rfl

/-- Rows of any [200000, 2] array accumulated into the zero operand by the column of ids: entry (g, d) is the feature d
    pooled over the nodes of graph g. -/
theorem scatter_rows_apply (h : (⟨S200000x2, .f32⟩ : BufTy).Contents (Elt Ideal))
    (x2 : (⟨S200000, .i32⟩ : BufTy).Contents (Elt Ideal)) (g : Fin 512) (d : Fin 2) :
    Host.scatterAdd (F := Ideal) (φ := .f32) scatter_S512x2_S200000x1_S200000x2_1_0_0_1 (val_main_v84 (F := Ideal))
        (val_main_v85 (F := Ideal) x2) h (ix2 g d)
      = Cert.PoolSpec.pooled h x2 g.val d := by
  refine (ScatterAddRows.scatterAdd_rows_apply Facts₀.scatter_S512x2_S200000x1_S200000x2_1_0_0_1_wf
    (val_main_v84 (F := Ideal)) (val_main_v85 (F := Ideal) x2) h g d).trans ?_
  rw [zero_operand_apply, zero_add]
  unfold Cert.PoolSpec.pooled
  refine Finset.sum_congr rfl fun n _ => ?_
  rw [ids_column_apply]

/-- The reference's scatter at (g, d) is the pooled feature of its third-layer output. -/
theorem pooled_stage_apply (x0 : (⟨S200000x2, .f32⟩ : BufTy).Contents (Elt Ideal)) (x1 : (⟨S2x12800000, .i32⟩ : BufTy).Contents (Elt Ideal)) (x2 : (⟨S200000, .i32⟩ : BufTy).Contents (Elt Ideal)) (x3 : (⟨S2x2, .f32⟩ : BufTy).Contents (Elt Ideal)) (x4 : (⟨S2, .f32⟩ : BufTy).Contents (Elt Ideal)) (x5 : (⟨S2x2, .f32⟩ : BufTy).Contents (Elt Ideal)) (x6 : (⟨S2, .f32⟩ : BufTy).Contents (Elt Ideal)) (x7 : (⟨S2x2, .f32⟩ : BufTy).Contents (Elt Ideal)) (x8 : (⟨S2, .f32⟩ : BufTy).Contents (Elt Ideal))
    (g : Fin 512) (d : Fin 2) :
    val_main_v86 (F := Ideal) x0 x1 x2 x3 x4 x5 x6 x7 x8 (ix2 g d)
      = Cert.PoolSpec.pooled (val_main_v83 (F := Ideal) x0 x1 x3 x4 x5 x6 x7 x8) x2 g.val d := by
  unfold val_main_v86
  generalize val_main_v83 (F := Ideal) x0 x1 x3 x4 x5 x6 x7 x8 = h
  exact scatter_rows_apply h x2 g d

/-- The index the final reshape reads for graph g, then the matrix product's left index at feature d: (g, d). -/
theorem lidx_eq (g : Fin 512) (d : Fin 2) : lidx_main_v87 (idx_main_v91 (ix1 g)) d = ix2 g d := by
  funext a
  match a with
  | ⟨0, _⟩ => exact Fin.ext (Nat.div_one _)
  | ⟨1, _⟩ => rfl

/-- … and its right index: (d, 0). -/
theorem ridx_eq (g : Fin 512) (d : Fin 2) : ridx_main_v87 (idx_main_v91 (ix1 g)) d = ix2 d (0 : Fin 1) := by
  funext a
  match a with
  | ⟨0, _⟩ => rfl
  | ⟨1, _⟩ => rfl

/-- The bias, broadcast twice, reads the one bias entry everywhere. -/
theorem bias_apply (x10 : (⟨S1, .f32⟩ : BufTy).Contents (Elt Ideal)) (i : S512x1.Idx) :
    val_main_v89 (F := Ideal) x10 i = x10 (ix1 (0 : Fin 1)) := by
  rw [val_main_v89_apply, val_main_v88_apply]
  congr 1
  funext a
  match a with
  | ⟨0, _⟩ => rfl

/-- The reference's result is the pooled head of its third-layer features. -/
theorem result_eq (x0 : (⟨S200000x2, .f32⟩ : BufTy).Contents (Elt Ideal)) (x1 : (⟨S2x12800000, .i32⟩ : BufTy).Contents (Elt Ideal)) (x2 : (⟨S200000, .i32⟩ : BufTy).Contents (Elt Ideal)) (x3 : (⟨S2x2, .f32⟩ : BufTy).Contents (Elt Ideal)) (x4 : (⟨S2, .f32⟩ : BufTy).Contents (Elt Ideal)) (x5 : (⟨S2x2, .f32⟩ : BufTy).Contents (Elt Ideal)) (x6 : (⟨S2, .f32⟩ : BufTy).Contents (Elt Ideal)) (x7 : (⟨S2x2, .f32⟩ : BufTy).Contents (Elt Ideal)) (x8 : (⟨S2, .f32⟩ : BufTy).Contents (Elt Ideal)) (x9 : (⟨S2x1, .f32⟩ : BufTy).Contents (Elt Ideal)) (x10 : (⟨S1, .f32⟩ : BufTy).Contents (Elt Ideal)) :
    Cert.ReferenceIdeal.Read.val_main_v91 (F := Ideal) x0 x1 x2 x3 x4 x5 x6 x7 x8 x9 x10
      = Cert.PoolSpec.head (Cert.ReferenceIdeal.Read.val_main_v83 (F := Ideal) x0 x1 x3 x4 x5 x6 x7 x8) x2 x9 x10 := by
  funext j
  obtain ⟨g, rfl⟩ : ∃ g : Fin 512, j = ix1 g := ⟨j 0, eq_ix1 j⟩
  rw [val_main_v91_apply, val_main_v90_apply, val_main_v87_apply, bias_apply, Ideal.addf_def]
  show _ = (∑ d : Fin 2, Cert.PoolSpec.pooled (val_main_v83 (F := Ideal) x0 x1 x3 x4 x5 x6 x7 x8) x2 g.val d
      * x9 (ix2 d (0 : Fin 1))) + x10 (ix1 (0 : Fin 1))
  refine congrArg (· + x10 (ix1 (0 : Fin 1))) (Finset.sum_congr rfl fun d _ => ?_)
  rw [lidx_eq, ridx_eq, pooled_stage_apply]

end Cert.RefPool

end
-- ==== Proof.KernelBody.lean ====
/-
  What one grid point of the pooling kernel leaves behind, as values.

  The kernel carries a [2, 512] total across its 25 grid points. At a point it holds a block of 8192 node features
  (transposed: [2, 8192]) and the block's 8192 graph ids ([1, 8192]); it adds to the carried total the product of the
  feature block with the one-hot matrix of the ids (`k0_pay2`), having first reset the total to zero at the first point
  (`k0_pay1`); at the last point it also writes the head, the weights against the total plus the bias (`k0_pay3`), over
  the total it has just updated. The four lemmas below read the stores each case of the body makes back as these values;
  they hold at every float instance.
-/
import proofs.«415151_j36129264894520_2_alg».proof.Proof.Gen.KernelIdeal.Frame
import Idealize.ShloMosaic.Lib.ValueIdx
import Idealize.ShloMosaic.Lib.Pipeline.Value
import Idealize.ShloMosaic.Lib.Tactic

set_option maxRecDepth 16384

noncomputable section

namespace Cert.KernelBody

open Idealize.ShloMosaic Idealize.ShloMosaic.TcCoe Idealize.ShloMosaic.Tactic Idealize.SL.Sem Idealize.ShloMosaic.ValueIdx
open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-- A middle point: the carried total `xs0` plus the block's one-hot product. -/
theorem carried_B (c : Dev nD) (i : grid0.Coords) (arg1 : Memref sig .tc .vmem S2x8192 .f32) (harg1 : arg1.IsWhole) (arg2 : Memref sig .tc .vmem S1x8192 .i32) (harg2 : arg2.IsWhole) (arg3 : Memref sig .tc .vmem S2x1 .f32) (harg3 : arg3.IsWhole) (arg4 : Memref sig .tc .vmem S1x1 .f32) (harg4 : arg4.IsWhole) (arg5 : Memref sig .tc .vmem S1x512 .f32) (harg5 : arg5.IsWhole) (arg6 : Memref sig .tc .vmem S2x512 .f32) (harg6 : arg6.IsWhole) (hc0 : ¬cond0_0 i) (hc1 : ¬cond0_1 i)
    (x0 : Vec F S2x8192 .f32) (x1 : Vec F S1x8192 .i32) (x2 : Vec F S2x1 .f32) (x3 : Vec F S1x1 .f32) (xs0 : Vec F S2x512 .f32) :
    sout0_B_0 c i arg1 harg1 arg2 harg2 arg3 harg3 arg4 harg4 arg5 harg5 arg6 harg6 hc0 hc1 x0 x1 x2 x3 xs0 = k0_pay2 x1 x0 xs0 := by
  unfold sout0_B_0
  rw [View.read_writes_eq_canon _ _ _ (scover0_B_0 c i arg1 harg1 arg2 harg2 arg3 harg3 arg4 harg4 arg5 harg5 arg6 harg6 hc0 hc1 x0 x1 x2 x3 xs0)]
  unfold kernelRun0_B
  dsimp only
  sl_unfold_words
  rw [View.canon_unit_zero hz]
  simp only [View.readAt_eq_ld, harg1.read_unread, harg2.read_unread, harg3.read_unread, harg4.read_unread, harg6.read_unread, View.ld_unit_zero (S := S2x8192) hz, View.ld_unit_zero (S := S1x8192) hz, View.ld_unit_zero (S := S2x512) hz, View.ld_unit_zero (S := S2x1) hz, View.ld_unit_zero (S := S1x1) hz]

/-- The first point: the total is reset to zero, and the block's one-hot product added to that zero. -/
theorem carried_A (c : Dev nD) (i : grid0.Coords) (arg1 : Memref sig .tc .vmem S2x8192 .f32) (harg1 : arg1.IsWhole) (arg2 : Memref sig .tc .vmem S1x8192 .i32) (harg2 : arg2.IsWhole) (arg3 : Memref sig .tc .vmem S2x1 .f32) (harg3 : arg3.IsWhole) (arg4 : Memref sig .tc .vmem S1x1 .f32) (harg4 : arg4.IsWhole) (arg5 : Memref sig .tc .vmem S1x512 .f32) (harg5 : arg5.IsWhole) (arg6 : Memref sig .tc .vmem S2x512 .f32) (harg6 : arg6.IsWhole) (hc0 : cond0_0 i) (hc1 : ¬cond0_1 i)
    (x0 : Vec F S2x8192 .f32) (x1 : Vec F S1x8192 .i32) (x2 : Vec F S2x1 .f32) (x3 : Vec F S1x1 .f32) :
    sout0_A_0 c i arg1 harg1 arg2 harg2 arg3 harg3 arg4 harg4 arg5 harg5 arg6 harg6 hc0 hc1 x0 x1 x2 x3 = k0_pay2 x1 x0 (k0_pay1 (F := F)) := by
  unfold sout0_A_0
  rw [View.read_writes_eq_canon _ _ _ (scover0_A_0 c i arg1 harg1 arg2 harg2 arg3 harg3 arg4 harg4 arg5 harg5 arg6 harg6 hc0 hc1 x0 x1 x2 x3)]
  unfold kernelRun0_A
  dsimp only
  sl_unfold_words
  rw [View.canon_cons_unit_zero (S := S2x512) hz, View.readCov_unit_zero (S := S2x512) _ hz]
  simp only [View.readAt_eq_ld, harg1.read_unread, harg2.read_unread, harg3.read_unread, harg4.read_unread, harg6.read_unread, View.ld_unit_zero (S := S2x8192) hz, View.ld_unit_zero (S := S1x8192) hz, View.ld_unit_zero (S := S2x512) hz, View.ld_unit_zero (S := S2x1) hz, View.ld_unit_zero (S := S1x1) hz]

/-- The last point: the carried total is updated as at a middle point. -/
theorem carried_C (c : Dev nD) (i : grid0.Coords) (arg1 : Memref sig .tc .vmem S2x8192 .f32) (harg1 : arg1.IsWhole) (arg2 : Memref sig .tc .vmem S1x8192 .i32) (harg2 : arg2.IsWhole) (arg3 : Memref sig .tc .vmem S2x1 .f32) (harg3 : arg3.IsWhole) (arg4 : Memref sig .tc .vmem S1x1 .f32) (harg4 : arg4.IsWhole) (arg5 : Memref sig .tc .vmem S1x512 .f32) (harg5 : arg5.IsWhole) (arg6 : Memref sig .tc .vmem S2x512 .f32) (harg6 : arg6.IsWhole) (hc0 : ¬cond0_0 i) (hc1 : cond0_1 i)
    (x0 : Vec F S2x8192 .f32) (x1 : Vec F S1x8192 .i32) (x2 : Vec F S2x1 .f32) (x3 : Vec F S1x1 .f32) (xs0 : Vec F S2x512 .f32) :
    sout0_C_0 c i arg1 harg1 arg2 harg2 arg3 harg3 arg4 harg4 arg5 harg5 arg6 harg6 hc0 hc1 x0 x1 x2 x3 xs0 = k0_pay2 x1 x0 xs0 := by
  unfold sout0_C_0
  rw [View.read_writes_eq_canon _ _ _ (scover0_C_0 c i arg1 harg1 arg2 harg2 arg3 harg3 arg4 harg4 arg5 harg5 arg6 harg6 hc0 hc1 x0 x1 x2 x3 xs0)]
  unfold kernelRun0_C
  dsimp only
  sl_unfold_words
  rw [View.canon_unit_zero hz]
  simp only [View.readAt_eq_ld, harg1.read_unread, harg2.read_unread, harg3.read_unread, harg4.read_unread, harg6.read_unread, View.ld_unit_zero (S := S2x8192) hz, View.ld_unit_zero (S := S1x8192) hz, View.ld_unit_zero (S := S2x512) hz, View.ld_unit_zero (S := S2x1) hz, View.ld_unit_zero (S := S1x1) hz]

/-- The last point's output block: the head over the total just updated. -/
theorem out_C (c : Dev nD) (i : grid0.Coords) (arg1 : Memref sig .tc .vmem S2x8192 .f32) (harg1 : arg1.IsWhole) (arg2 : Memref sig .tc .vmem S1x8192 .i32) (harg2 : arg2.IsWhole) (arg3 : Memref sig .tc .vmem S2x1 .f32) (harg3 : arg3.IsWhole) (arg4 : Memref sig .tc .vmem S1x1 .f32) (harg4 : arg4.IsWhole) (arg5 : Memref sig .tc .vmem S1x512 .f32) (harg5 : arg5.IsWhole) (arg6 : Memref sig .tc .vmem S2x512 .f32) (harg6 : arg6.IsWhole) (hc0 : ¬cond0_0 i) (hc1 : cond0_1 i)
    (x0 : Vec F S2x8192 .f32) (x1 : Vec F S1x8192 .i32) (x2 : Vec F S2x1 .f32) (x3 : Vec F S1x1 .f32) (xs0 : Vec F S2x512 .f32) :
    out0_C_4 c i arg1 harg1 arg2 harg2 arg3 harg3 arg4 harg4 arg5 harg5 arg6 harg6 hc0 hc1 x0 x1 x2 x3 xs0 = k0_pay3 x2 x3 (k0_pay2 x1 x0 xs0) := by
  unfold out0_C_4
  rw [View.read_writes_eq_canon _ _ _ (cover0_C_4 c i arg1 harg1 arg2 harg2 arg3 harg3 arg4 harg4 arg5 harg5 arg6 harg6 hc0 hc1 x0 x1 x2 x3 xs0)]
  unfold kernelRun0_C
  dsimp only
  sl_unfold_words
  rw [View.canon_unit_zero hz]
  simp only [View.readAt_eq_ld, harg1.read_unread, harg2.read_unread, harg3.read_unread, harg4.read_unread, harg6.read_unread, View.ld_unit_zero (S := S2x8192) hz, View.ld_unit_zero (S := S1x8192) hz, View.ld_unit_zero (S := S2x512) hz, View.ld_unit_zero (S := S2x1) hz, View.ld_unit_zero (S := S1x1) hz, View.readCov_unit_zero (S := S2x512) _ hz]

end Cert.KernelBody

end
-- ==== Proof.LibMatmulRowsByRows.lean ====
/-
  The product of a matrix by the transpose of another, read at an index.

  A kernel's matrix product whose dimension numbers contract the LAST axis of both operands takes an m×k matrix `A` and
  an n×k matrix `B` to the m×n matrix of the inner products of the rows of the one with the rows of the other. Into a zero
  accumulator and at the ideal values, its entry (r, h) is the sum over the contracted coordinate `l` of
  `A (r, l) * B (h, l)`.
-/
import Idealize.ShloMosaic.PureOps.Ideal.Laws
import Idealize.ShloMosaic.Lib.ValueIdx

noncomputable section

namespace Idealize.ShloMosaic.MatmulRowsByRows

open Idealize.ShloMosaic Idealize.ShloMosaic.ValueIdx

/-- A kernel's product of an m×k matrix by an n×k matrix, contracting the last axis of both, into the zero accumulator,
    read at `(r, h)`: the inner product of row `r` of the first with row `h` of the second. -/
theorem matmul_rows_by_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (r : Fin m) (h : Fin n) :
    FloatOps.matmul (⟨[1], [1], [0], [0], [], [], w⟩ : DotDims _ _ _) prec A B
        (constant ⟨2, ![m, n]⟩ .f32 0x00000000#32) (ix2 r h)
      = ∑ l : Fin k, A (ix2 r l) * B (ix2 h l) := by
  rw [Ideal.matmul_constant_zero_apply,
    ← Equiv.sum_comp (contrEquiv1 (⟨[1], [1], [0], [0], [], [], w⟩ : DotDims _ _ _) k rfl rfl).symm]
  refine Finset.sum_congr rfl fun l _ => ?_
  have c2 := contrEquiv1_symm_val
    (⟨[1], [1], [0], [0], [], [], w⟩ : DotDims ⟨2, ![m, k]⟩ ⟨2, ![n, k]⟩ ⟨2, ![m, n]⟩) k rfl rfl l
  have l2 : (⟨[1], [1], [0], [0], [], [], w⟩ : DotDims ⟨2, ![m, k]⟩ ⟨2, ![n, k]⟩ ⟨2, ![m, n]⟩).lhsIdx (ix2 r h)
      ((contrEquiv1 _ k rfl rfl).symm l) = ix2 r l := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 r h)
      ((contrEquiv1 _ k rfl rfl).symm l) = ix2 h l := by
    funext ax; apply Fin.ext
    match ax with
    | ⟨0, _⟩ => simp [DotDims.rhsIdx]; rfl
    | ⟨1, _⟩ => simp [DotDims.rhsIdx]; exact c2
  rw [l2, r2]

end Idealize.ShloMosaic.MatmulRowsByRows

end
-- ==== Proof.LibMatmulColsByCols.lean ====
/-
  The matrix product that contracts the FIRST axis of both operands, read at an index, at the ideal values.

  A k×m matrix A and a k×n matrix B, both contracted along their rows' axis, give the m×n matrix whose entry (r, h) is
  the sum over the contracted coordinate l of A(l, r)·B(l, h): the product of the transpose of A with B. Into a zero
  accumulator, and at the ideal values, where no rounding and no order of summation is left, the product read at (r, h)
  is exactly that sum. The four coordinate lemmas say where each operand is read: the contracted axis takes the
  contraction's one coordinate, the other axis the matching coordinate of the result.
-/
import Idealize.ShloMosaic.PureOps.Ideal.Laws
import Idealize.ShloMosaic.Lib.ValueIdx

noncomputable section

namespace Idealize.ShloMosaic.MatmulColsByCols

open Idealize.ShloMosaic Idealize.ShloMosaic.ValueIdx

variable {m k n : ℕ}

/-- The dimension numbers `[0] × [0]`, kept axes `[1]` and `[1]`, no batch axis. -/
abbrev dims (w : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ := ⟨[0], [0], [1], [1], [], [], w⟩

/-- The left operand's contracted axis reads the contraction's coordinate. -/
theorem lhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 0).val = (q ⟨0, Nat.one_pos⟩).val :=
  (dims w).lhsIdx_val_of_single rfl j q

/-- The left operand's kept axis reads the result's first coordinate. -/
theorem lhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 1).val = (j 0).val := by
  unfold DotDims.lhsIdx
  rw [dif_neg (show ¬(1 : Fin 2) ∈ (dims w).lhsBatch from List.not_mem_nil),
    dif_pos (show (1 : Fin 2) ∈ (dims w).lhsNonContracting from List.mem_singleton.mpr rfl)]
  rfl

/-- The right operand's contracted axis reads the contraction's coordinate. -/
theorem rhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- A kernel's product of the transpose of a k×m matrix with a k×n matrix into the zero accumulator, read at `(r, h)`. -/
theorem matmul_cols_apply {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (r : Fin m) (h : Fin n) :
    FloatOps.matmul (⟨[0], [0], [1], [1], [], [], w⟩ : DotDims _ _ _) prec A B
        (constant ⟨2, ![m, n]⟩ .f32 0x00000000#32) (ix2 r h)
      = ∑ l : Fin k, A (ix2 l r) * B (ix2 l h) := by
  rw [Ideal.matmul_constant_zero_apply, ← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 l r := by
    funext ax; apply Fin.ext
    match ax with
    | ⟨0, _⟩ => exact (lhs_0 w _ _).trans c2
    | ⟨1, _⟩ => exact lhs_1 w _ _
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

end Idealize.ShloMosaic.MatmulColsByCols

end
-- ==== Proof.KernelPayloads.lean ====
/-
  The pooling kernel's three stored values, read at an entry, at the ideal values.

  The body's reset stores zero. Its accumulation adds, at entry (d, g) of the [2, 512] total, the inner product of row d
  of the [2, 8192] feature block with row g of the one-hot matrix [512, 8192] of the block's ids: the sum over the 8192
  nodes of the block of feature d times the node's one-hot weight for graph g. Its head is, for graph g, the inner product
  of the [2, 1] weight column with column g of the total, plus the one bias entry.
-/
import proofs.«415151_j36129264894520_2_alg».proof.Proof.Gen.KernelIdeal.Skeleton
import proofs.«415151_j36129264894520_2_alg».proof.Proof.LibMatmulRowsByRows
import proofs.«415151_j36129264894520_2_alg».proof.Proof.LibMatmulColsByCols
import Idealize.ShloMosaic.Lib.ValueIdx
import Idealize.ShloMosaic.Lib.Pipeline.Value
import Idealize.ShloMosaic.PureOps.Ideal.Laws

noncomputable section

open scoped BigOperators

namespace Cert.KernelPayloads

open Idealize.ShloMosaic Idealize.ShloMosaic.TcCoe Idealize.SL.Sem Idealize.ShloMosaic.ValueIdx
open Cert.KernelIdeal Cert.KernelIdeal.Gen

/-- The one-hot weight of a node's id word `b` for graph `g`: one when the word is `g`'s, zero otherwise. -/
def hot (b : BitVec 32) (g : ℕ) : EReal := if b = BitVec.ofNat 32 g then 1 else 0

/-- The kernel makes that weight by comparing `g`'s word with `b`, widening the bit and converting it to a float. -/
theorem onehot_entry (b : BitVec 32) (g : ℕ) :
    FloatOps.sitofp (F := Ideal) .f32 ((IntOp.cmpi .eq (BitVec.ofNat 32 g) b).setWidth 32) = hot b g := by
  unfold hot
  by_cases h : b = BitVec.ofNat 32 g
  · rw [if_pos h, h]
    have e : (IntOp.cmpi .eq (BitVec.ofNat 32 g) (BitVec.ofNat 32 g)).setWidth 32 = 1#32 := by simp [IntOp.cmpi]
    rw [e]
    show (((1#32 : BitVec 32).toInt : ℝ) : EReal) = 1
    rw [show (1#32 : BitVec 32).toInt = 1 from by decide]; simp
  · rw [if_neg h]
    have hb : (BitVec.ofNat 32 g == b) = false := by
      rw [beq_eq_false_iff_ne]; exact fun e => h e.symm
    have e : (IntOp.cmpi .eq (BitVec.ofNat 32 g) b).setWidth 32 = 0#32 := by simp [IntOp.cmpi, hb]
    rw [e]
    show (((0#32 : BitVec 32).toInt : ℝ) : EReal) = 0
    simp

/-- The reset stores zero everywhere. -/
theorem reset_apply (j : S2x512.Idx) : k0_pay1 (F := Ideal) j = 0 := by
  unfold k0_pay1
  rw [shapeCast_self]
  exact Ideal.ofBits_zero_f32

/-- The accumulation at entry (d, g): the carried total there plus the sum over the block's 8192 nodes of feature d
    times the node's one-hot weight for graph g. -/
theorem accum_apply (v4 : Vec Ideal S1x8192 .i32) (v10 : Vec Ideal S2x8192 .f32) (v13 : Vec Ideal S2x512 .f32)
    (d : Fin 2) (g : Fin 512) :
    k0_pay2 (F := Ideal) v4 v10 v13 (ix2 d g)
      = v13 (ix2 d g) + ∑ l : Fin 8192, v10 (ix2 d l) * hot (v4 (ix2 (0 : Fin 1) l)) g.val := by
  unfold k0_pay2
  dsimp only
  rw [shapeCast_self, shapeCast_self, shapeCast_self, addf_apply]
  refine congrArg (v13 (ix2 d g) + ·) ?_
  unfold dot_S2x8192_S512x8192_S2x512_1_1_0_0_n_n
  refine (MatmulRowsByRows.matmul_rows_by_rows_apply dot_S2x8192_S512x8192_S2x512_1_1_0_0_n_n_wf none v10 _ d g).trans ?_
  refine Finset.sum_congr rfl fun l _ => ?_
  refine congrArg (v10 (ix2 d l) * ·) ?_
  rw [sitofp_apply, extui_apply]
  show FloatOps.sitofp .f32 ((IntOp.cmpi .eq (iota .tc S512x8192 32 [0] iota_S512x8192_d0_w32 (ix2 g l))
    (broadcastTo S512x8192 v4 broadcasts_S1x8192_S512x8192 (ix2 g l))).setWidth 32) = _
  rw [iota_single_apply, broadcastTo_apply v4 broadcasts_S1x8192_S512x8192 (ix2 g l) (ix2 (0 : Fin 1) l)
    (fun a => by match a with | ⟨0, _⟩ => rfl | ⟨1, _⟩ => rfl)]
  exact onehot_entry _ _

/-- The head at graph g: the two weights against the two totals of g, plus the bias. -/
theorem head_apply (v21 : Vec Ideal S2x1 .f32) (v22 : Vec Ideal S1x1 .f32) (v24 : Vec Ideal S2x512 .f32) (g : Fin 512) :
    k0_pay3 (F := Ideal) v21 v22 v24 (ix2 (0 : Fin 1) g)
      = (∑ d : Fin 2, v21 (ix2 d (0 : Fin 1)) * v24 (ix2 d g)) + v22 (ix2 (0 : Fin 1) (0 : Fin 1)) := by
  unfold k0_pay3
  rw [addf_apply, shapeCast_self]
  unfold dot_S2x1_S2x512_S1x512_0_0_1_1_n_n
  rw [broadcastTo_apply v22 broadcasts_S1x1_S1x512 (ix2 (0 : Fin 1) g) (ix2 (0 : Fin 1) (0 : Fin 1))
    (fun a => by match a with | ⟨0, _⟩ => rfl | ⟨1, _⟩ => rfl)]
  refine congrArg (· + v22 (ix2 (0 : Fin 1) (0 : Fin 1))) ?_
  exact MatmulColsByCols.matmul_cols_apply dot_S2x1_S2x512_S1x512_0_0_1_1_n_n_wf none v21 v24 (0 : Fin 1) g

end Cert.KernelPayloads

end
-- ==== Proof.KernelHost.lean ====
/-
  What the region finds in three of its windows.

  Before the region the program runs the three graph-convolution layers (their output h has one row of two features per
  node, 200000 rows) and then eight more operations: h is padded with 4800 rows of the integer zero converted to a float,
  which is zero, and transposed to 2 × 204800; the graph ids are padded with 4800 copies of the word 512 and laid out as
  one row 1 × 204800; the bias is reshaped to 1 × 1. The layers are a hundred operations over arrays of 13,000,000 edges
  and are never opened here: the operations are cut into the layers and the last eight, the contents after the layers are
  kept as one unknown valuation, and only the last eight are run. Each window is then read at an index.
-/
import proofs.«415151_j36129264894520_2_alg».proof.Proof.Gen.KernelIdeal.Frame.Runs
import Idealize.ShloMosaic.Lib.ValueIdx
import Idealize.ShloMosaic.Lib.Pipeline.Value
import Idealize.ShloMosaic.Lib.KernelVsHost

noncomputable section

namespace Cert.KernelHost

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The operations before the region, as two stretches: the three layers (the first eight lists) and the eight
    operations that lay the features and the ids out for the region (the last five). -/
abbrev headOps : List (HloOp τ sig (Elt Ideal)) :=
  hostOps0 ++ (hostOps0_1 ++ (hostOps0_2 ++ (hostOps0_3 ++ (hostOps0_4 ++ (hostOps0_5 ++ (hostOps0_6 ++ hostOps0_7))))))

abbrev tailOps : List (HloOp τ sig (Elt Ideal)) :=
  hostOps0_8 ++ (hostOps0_9 ++ (hostOps0_10 ++ (hostOps0_11 ++ hostOps0_12)))

/-- The contents at the region's entry are the last stretch run from the contents after the first. -/
theorem V0_split (c : Dev nD) :
    V0 m c = StableHlo.after tailOps (StableHlo.after headOps (fun b => m (c, b))) := by
  rw [← StableHlo.after_append]
  dsimp only [V0, headOps, tailOps]
  simp only [List.flatten_cons, List.flatten_nil, List.append_nil, List.append_assoc]

/-! ## The last stretch, from any contents -/

/-- The transposed padded features at (d, n): feature d of node n below 200000, the pad value (the integer zero
    converted, which is zero) from there on. -/
theorem tail_v84 (W : Valuation τ sig (Elt Ideal)) (d : Fin 2) (n : Fin 204800) :
    (StableHlo.after tailOps W (Proc.devRef .tc main_v84) : S2x204800.Idx → EReal) (ix2 d n)
      = if h : n.val < 200000 then (W (Proc.devRef .tc main_v81) : S200000x2.Idx → EReal) (ix2 (⟨n.val, h⟩ : Fin 200000) d)
        else (0 : EReal) := by
  simp only [tailOps, hostOps0_8, hostOps0_9, hostOps0_10, hostOps0_11, hostOps0_12, List.cons_append, List.nil_append]
  after_results
  simp only [StableHlo.TRef.ofBuf, StableHlo.TRef.toBuf, cast_eq]
  rw [transpose_apply (s := S204800x2) (t := S2x204800) [1, 0] _ transposes_S204800x2_S2x204800_1_0 (ix2 d n) (ix2 n d)
    (by intro b; fin_cases b <;> rfl)]
  by_cases h : n.val < 200000
  · rw [dif_pos h]
    exact pad_apply_of_inside _ _ _ _ _ _ _ (ix2 n d) (ix2 (⟨n.val, h⟩ : Fin 200000) d) (by intro a; fin_cases a <;> simp [ix2])
  · rw [dif_neg h]
    rw [pad_apply_of_not_inside _ _ _ _ _ _ _ (ix2 n d) (0 : Fin 2) (by simp [ix2]; omega)]
    rw [sitofp_apply]
    exact sitofp_zero (φ := .f32)

/-- The padded ids as one row, at n: node n's id below 200000, the word 512 from there on. -/
theorem tail_v85 (W : Valuation τ sig (Elt Ideal)) (n : Fin 204800) :
    (StableHlo.after tailOps W (Proc.devRef .tc main_v85) : S1x204800.Idx → BitVec 32) (ix2 (0 : Fin 1) n)
      = if h : n.val < 200000 then (W (Proc.devRef .tc main_arg2) : S200000.Idx → BitVec 32) (ix1 (⟨n.val, h⟩ : Fin 200000))
        else 512#32 := by
  simp only [tailOps, hostOps0_8, hostOps0_9, hostOps0_10, hostOps0_11, hostOps0_12, List.cons_append, List.nil_append]
  after_results
  simp only [StableHlo.TRef.ofBuf, StableHlo.TRef.toBuf, cast_eq]
  rw [broadcastInDim_apply (s := S204800) (t := S1x204800) ![1] bcast_S204800_S1x204800_1 _ (ix2 (0 : Fin 1) n) (ix1 n)
    (by intro a; fin_cases a; simp [ix1, ix2])]
  by_cases h : n.val < 200000
  · rw [dif_pos h]
    exact pad_apply_of_inside _ _ _ _ _ _ _ (ix1 n) (ix1 (⟨n.val, h⟩ : Fin 200000)) (by intro a; fin_cases a; simp [ix1])
  · rw [dif_neg h]
    rw [pad_apply_of_not_inside _ _ _ _ _ _ _ (ix1 n) (0 : Fin 1) (by simp [ix1]; omega)]
    rfl

/-- The bias as a 1×1 array, at its one entry. -/
theorem tail_v86 (W : Valuation τ sig (Elt Ideal)) :
    (StableHlo.after tailOps W (Proc.devRef .tc main_v86) : S1x1.Idx → EReal) (ix2 (0 : Fin 1) (0 : Fin 1))
      = (W (Proc.devRef .tc main_arg10) : S1.Idx → EReal) (ix1 (0 : Fin 1)) := by
  simp only [tailOps, hostOps0_8, hostOps0_9, hostOps0_10, hostOps0_11, hostOps0_12, List.cons_append, List.nil_append]
  after_results
  exact shapeCast_apply (s := S1) (t := S1x1) _ shapeCasts_S1_S1x1 (ix2 (0 : Fin 1) (0 : Fin 1)) (ix1 (0 : Fin 1))
    (by rw [Shape.rowMajor_val_one, Shape.rowMajor_val_two]; rfl)

/-- The last stretch writes neither the third layer's output nor an argument. -/
theorem tail_v81 (W : Valuation τ sig (Elt Ideal)) :
    StableHlo.after tailOps W (Proc.devRef .tc main_v81) = W (Proc.devRef .tc main_v81) := by
  simp only [tailOps, hostOps0_8, hostOps0_9, hostOps0_10, hostOps0_11, hostOps0_12, List.cons_append, List.nil_append]
  after_results

theorem tail_arg2 (W : Valuation τ sig (Elt Ideal)) :
    StableHlo.after tailOps W (Proc.devRef .tc main_arg2) = W (Proc.devRef .tc main_arg2) := by
  simp only [tailOps, hostOps0_8, hostOps0_9, hostOps0_10, hostOps0_11, hostOps0_12, List.cons_append, List.nil_append]
  after_results

theorem tail_arg10 (W : Valuation τ sig (Elt Ideal)) :
    StableHlo.after tailOps W (Proc.devRef .tc main_arg10) = W (Proc.devRef .tc main_arg10) := by
  simp only [tailOps, hostOps0_8, hostOps0_9, hostOps0_10, hostOps0_11, hostOps0_12, List.cons_append, List.nil_append]
  after_results

/-! ## The region's three windows -/

/-- The node features after the third layer, as the region finds them. -/
abbrev feats (c : Dev nD) : S200000x2.Idx → EReal := V m c main_v81

theorem feat_apply (c : Dev nD) (d : Fin 2) (n : Fin 204800) :
    (V m c main_v84 : S2x204800.Idx → EReal) (ix2 d n)
      = if h : n.val < 200000 then feats m c (ix2 (⟨n.val, h⟩ : Fin 200000) d) else 0 := by
  dsimp only [feats, V]
  rw [V0_split m c, tail_v84, tail_v81]

theorem ids_apply (c : Dev nD) (n : Fin 204800) :
    (V m c main_v85 : S1x204800.Idx → BitVec 32) (ix2 (0 : Fin 1) n)
      = if h : n.val < 200000 then (m ((c.tc : Thread nD τ).loc main_arg2) : S200000.Idx → BitVec 32) (ix1 (⟨n.val, h⟩ : Fin 200000)) else 512#32 := by
  rw [← V_main_arg2 m c]
  dsimp only [V]
  rw [V0_split m c, tail_v85, tail_arg2]

theorem bias_apply (c : Dev nD) :
    (V m c main_v86 : S1x1.Idx → EReal) (ix2 (0 : Fin 1) (0 : Fin 1))
      = (m ((c.tc : Thread nD τ).loc main_arg10) : S1.Idx → EReal) (ix1 (0 : Fin 1)) := by
  rw [← V_main_arg10 m c]
  dsimp only [V]
  rw [V0_split m c, tail_v86, tail_arg10]

end Cert.KernelHost

end
-- ==== Proof.LibBlockSums.lean ====
/-
  Sums over a line of entries cut into equal blocks.

  A kernel that accumulates over a grid axis walks a line of entries block by block: at block t it adds up the B entries
  B·t, …, B·t + B − 1, and it carries the total across the T blocks. Over a commutative monoid the order and the grouping of a finite sum do not
  matter, so the T block sums together are the one sum over the first T·B entries. When the line of entries was padded
  past its first N entries with entries that contribute zero, the padding drops out of the sum.
-/
import Mathlib.Algebra.BigOperators.Group.Finset.Basic
import Mathlib.Algebra.BigOperators.Fin
import Mathlib.Data.Fintype.BigOperators

namespace Idealize.ShloMosaic.BlockSums

open Finset

variable {M : Type*} [AddCommMonoid M]

/-- T consecutive blocks of B entries each, summed block by block, are the first T·B entries summed in a row. -/
theorem sum_blocks (f : ℕ → M) (B : ℕ) : ∀ T : ℕ,
    ∑ t ∈ range T, ∑ j : Fin B, f (B * t + j.val) = ∑ n ∈ range (T * B), f n
  | 0 => by simp
  | T + 1 => by
    rw [sum_range_succ, sum_blocks f B T, Nat.succ_mul, sum_range_add,
      Fin.sum_univ_eq_sum_range (fun j => f (B * T + j)) B, Nat.mul_comm B T]

/-- Entries from N on that are all zero do not count. -/
theorem sum_range_pad (f : ℕ → M) (N P : ℕ) (h : ∀ n, N ≤ n → f n = 0) :
    ∑ n ∈ range (N + P), f n = ∑ n ∈ range N, f n := by
  rw [sum_range_add, sum_eq_zero (fun x _ => h _ (Nat.le_add_right _ _)), add_zero]

/-- Both together: T blocks of B entries covering N entries and P entries of padding that contribute zero sum to the
    N entries' sum, written over `Fin N`. -/
theorem sum_blocks_pad (f : ℕ → M) (B T N P : ℕ) (hTB : T * B = N + P) (h : ∀ n, N ≤ n → f n = 0) :
    ∑ t ∈ range T, ∑ j : Fin B, f (B * t + j.val) = ∑ n : Fin N, f n.val := by
  rw [sum_blocks f B T, hTB, sum_range_pad f N P h, Fin.sum_univ_eq_sum_range]

end Idealize.ShloMosaic.BlockSums
-- ==== Proof.KernelPool.lean ====
/-
  The pooling kernel's result, read off its run.

  The region walks the 204800 columns of the transposed, padded features in 25 blocks of 8192 and carries a [2, 512]
  total. By induction on the grid point, after point n the total holds at (d, g) the sum, over the columns of the blocks
  0 … n, of feature d times the column's one-hot weight for graph g (`carried_eq`). The 25 block sums are one sum over
  the 204800 columns; the 4800 padding columns carry the feature zero and drop out; a column below 200000 is a node, and
  its weight is one exactly when its id word reads g: so after the last point the total is the pooled feature
  (`total_eq`). The last point stores the head over that total into the output block, which is the whole [1, 512] result
  array and is written back once (`outBlock_eq`, `flushed_eq`, `final_out`); the line after the region reshapes the row
  to [512] (`result_eq`). The features h the region found are kept as one unknown array throughout.
-/
import proofs.«415151_j36129264894520_2_alg».proof.Proof.Gen.KernelIdeal.Frame
import proofs.«415151_j36129264894520_2_alg».proof.Proof.KernelBody
import proofs.«415151_j36129264894520_2_alg».proof.Proof.KernelPayloads
import proofs.«415151_j36129264894520_2_alg».proof.Proof.KernelHost
import proofs.«415151_j36129264894520_2_alg».proof.Proof.LibBlockSums
import proofs.«415151_j36129264894520_2_alg».proof.Proof.PoolSpec
import Idealize.ShloMosaic.Lib.Pipeline.Value
import Idealize.ShloMosaic.Lib.ValueIdx
import Idealize.ShloMosaic.Lib.StableHlo.Run

set_option maxRecDepth 16384

noncomputable section

open scoped BigOperators

namespace Cert.KernelPool

open Idealize.ShloMosaic Idealize.ShloMosaic.TcCoe Idealize.SL.Sem Idealize.ShloMosaic.ValueIdx
open Idealize.ShloMosaic.Pipeline (Dat)
open Cert.KernelIdeal Cert.KernelIdeal.Gen
open Cert.KernelPayloads (hot)

variable (m : (ℓ : Loc nD τ sig) → Buf (Elt Ideal) ℓ) (ρ : Dev nD → PrngReg)

/-! ## The windows' arrays and blocks, at their literal types -/

/-- The transposed, padded features [2, 204800] as the region finds them. -/
abbrev featArr (c : Dev nD) : S2x204800.Idx → EReal := V m c main_v84
/-- The padded graph ids [1, 204800]. -/
abbrev idArr (c : Dev nD) : S1x204800.Idx → BitVec 32 := V m c main_v85
/-- The head's weights [2, 1]. -/
abbrev wrArr (c : Dev nD) : S2x1.Idx → EReal := V m c main_arg9
/-- The head's bias [1, 1]. -/
abbrev brArr (c : Dev nD) : S1x1.Idx → EReal := V m c main_v86
/-- Point t's block of the features: columns 8192·t … 8192·t + 8191. -/
abbrev featBlk (c : Dev nD) (t : Fin cfg0.N) : S2x8192.Idx → EReal := iblk m c 0 t
/-- Point t's block of the ids. -/
abbrev idBlk (c : Dev nD) (t : Fin cfg0.N) : S1x8192.Idx → BitVec 32 := iblk m c 1 t
/-- The weights' one block. -/
abbrev wrBlk (c : Dev nD) (t : Fin cfg0.N) : S2x1.Idx → EReal := iblk m c 2 t
/-- The bias' one block. -/
abbrev brBlk (c : Dev nD) (t : Fin cfg0.N) : S1x1.Idx → EReal := iblk m c 3 t

/-- Where each window's block sits at point t: the features' and the ids' at column block t, the weights' and the bias'
    at the origin. -/
theorem idx_feat : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx_id : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx_wr : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_br : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-! ## The blocks are pieces of the arrays -/

theorem lt_of_point (t : Fin cfg0.N) (l : Fin 8192) : 8192 * t.val + l.val < 204800 := by
  have h1 := t.isLt; have h25 : cfg0.N = 25 := N_0; have h2 := l.isLt; omega

/-- Entry (d, l) of point t's feature block is entry (d, 8192·t + l) of the array. -/
theorem featBlk_apply (c : Dev nD) (t : Fin cfg0.N) (d : Fin 2) (l : Fin 8192) :
    featBlk m c t (ix2 d l) = featArr m c (ix2 d (⟨8192 * t.val + l.val, lt_of_point t l⟩ : Fin 204800)) := by
  dsimp only [featBlk, featArr]
  unfold iblk
  rw [View.read_apply]
  show (V m c main_v84 : S2x204800.Idx → EReal) _ = (V m c main_v84 : S2x204800.Idx → EReal) _
  refine congrArg (V m c main_v84 : S2x204800.Idx → EReal) ?_
  funext a
  apply Fin.ext
  match a with
  | ⟨0, _⟩ =>
    show win0_0.index t 0 * 2 + 1 * d.val = d.val
    rw [(idx_feat t).1]; omega
  | ⟨1, _⟩ =>
    show win0_0.index t 1 * 8192 + 1 * l.val = 8192 * t.val + l.val
    rw [(idx_feat t).2]; omega

/-- Entry (0, l) of point t's id block is entry (0, 8192·t + l) of the array. -/
theorem idBlk_apply (c : Dev nD) (t : Fin cfg0.N) (l : Fin 8192) :
    idBlk m c t (ix2 (0 : Fin 1) l) = idArr m c (ix2 (0 : Fin 1) (⟨8192 * t.val + l.val, lt_of_point t l⟩ : Fin 204800)) := by
  dsimp only [idBlk, idArr]
  unfold iblk
  rw [View.read_apply]
  show (V m c main_v85 : S1x204800.Idx → BitVec 32) _ = (V m c main_v85 : S1x204800.Idx → BitVec 32) _
  refine congrArg (V m c main_v85 : S1x204800.Idx → BitVec 32) ?_
  funext a
  apply Fin.ext
  match a with
  | ⟨0, _⟩ =>
    show win0_1.index t 0 * 1 + 1 * 0 = 0
    rw [(idx_id t).1]
  | ⟨1, _⟩ =>
    show win0_1.index t 1 * 8192 + 1 * l.val = 8192 * t.val + l.val
    rw [(idx_id t).2]; omega

/-- The weights' block is the weights. -/
theorem wrBlk_apply (c : Dev nD) (t : Fin cfg0.N) (d : Fin 2) :
    wrBlk m c t (ix2 d (0 : Fin 1)) = wrArr m c (ix2 d (0 : Fin 1)) := by
  dsimp only [wrBlk, wrArr]
  unfold iblk
  rw [View.read_apply]
  show (V m c main_arg9 : S2x1.Idx → EReal) _ = (V m c main_arg9 : S2x1.Idx → EReal) _
  refine congrArg (V m c main_arg9 : S2x1.Idx → EReal) ?_
  funext a
  apply Fin.ext
  match a with
  | ⟨0, _⟩ =>
    show win0_2.index t 0 * 2 + 1 * d.val = d.val
    rw [(idx_wr t).1]; omega
  | ⟨1, _⟩ =>
    show win0_2.index t 1 * 1 + 1 * 0 = 0
    rw [(idx_wr t).2]

/-- The bias' block is the bias. -/
theorem brBlk_apply (c : Dev nD) (t : Fin cfg0.N) :
    brBlk m c t (ix2 (0 : Fin 1) (0 : Fin 1)) = brArr m c (ix2 (0 : Fin 1) (0 : Fin 1)) := by
  dsimp only [brBlk, brArr]
  unfold iblk
  rw [View.read_apply]
  show (V m c main_v86 : S1x1.Idx → EReal) _ = (V m c main_v86 : S1x1.Idx → EReal) _
  refine congrArg (V m c main_v86 : S1x1.Idx → EReal) ?_
  funext a
  apply Fin.ext
  match a with
  | ⟨0, _⟩ =>
    show win0_3.index t 0 * 1 + 1 * 0 = 0
    rw [(idx_br t).1]
  | ⟨1, _⟩ =>
    show win0_3.index t 1 * 1 + 1 * 0 = 0
    rw [(idx_br t).2]

/-! ## The carried total after each point -/

/-- Column n's contribution to entry (d, g) of the total: its feature d times its one-hot weight for graph g; nothing
    past the 204800 columns. -/
def term (c : Dev nD) (d : Fin 2) (g : Fin 512) (n : ℕ) : EReal :=
  if h : n < 204800 then
    featArr m c (ix2 d (⟨n, h⟩ : Fin 204800)) * hot (idArr m c (ix2 (0 : Fin 1) (⟨n, h⟩ : Fin 204800))) g.val
  else 0

/-- Point t's inner product is the sum of its 8192 columns' contributions. -/
theorem blockSum (c : Dev nD) (t : Fin cfg0.N) (d : Fin 2) (g : Fin 512) :
    ∑ l : Fin 8192, featBlk m c t (ix2 d l) * hot (idBlk m c t (ix2 (0 : Fin 1) l)) g.val
      = ∑ l : Fin 8192, term m c d g (8192 * t.val + l.val) :=
  Finset.sum_congr rfl fun l _ => by
    rw [featBlk_apply m c t d l, idBlk_apply m c t l, term, dif_pos (lt_of_point t l)]

/-- THE ACCUMULATION: after point n the carried total holds, at (d, g), the contributions of the columns of the blocks
    0 … n; by induction on the point. -/
theorem carried_eq (c : Dev nD) : ∀ (n : ℕ) (hn : n < cfg0.N) (d : Fin 2) (g : Fin 512),
    ((outsAt0 m c n hn).2 : S2x512.Idx → EReal) (ix2 d g)
      = ∑ t ∈ Finset.range (n + 1), ∑ l : Fin 8192, term m c d g (8192 * t + l.val)
  | 0, hn, d, g => by
    have h0 : (⟨0, hn⟩ : Fin cfg0.N).val % 25 = 0 := Nat.zero_mod _
    have h1 : ¬(⟨0, hn⟩ : Fin cfg0.N).val % 25 = 24 := by dsimp only; omega
    rw [show outsAt0 m c 0 hn = _ from outsAt0_A m c ⟨0, hn⟩ h0 h1]
    dsimp only
    refine (congrFun (Cert.KernelBody.carried_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _)
      ((hcond0_0 ⟨0, hn⟩).mpr h0) (fun h => h1 ((hcond0_1 ⟨0, hn⟩).mp h)) (featBlk m c ⟨0, hn⟩) (idBlk m c ⟨0, hn⟩) (wrBlk m c ⟨0, hn⟩) (brBlk m c ⟨0, hn⟩)) (ix2 d g)).trans ?_
    rw [Cert.KernelPayloads.accum_apply, Cert.KernelPayloads.reset_apply, zero_add, Finset.sum_range_one,
      blockSum m c ⟨0, hn⟩ d g]
  | n + 1, hn, d, g => by
    have h25 : cfg0.N = 25 := N_0
    have h0 : ¬(⟨n + 1, hn⟩ : Fin cfg0.N).val % 25 = 0 := by dsimp only; omega
    have ih := carried_eq c n (Nat.lt_of_succ_lt hn) d g
    rw [Finset.sum_range_succ _ (n + 1)]
    by_cases h1 : (⟨n + 1, hn⟩ : Fin cfg0.N).val % 25 = 24
    · rw [show outsAt0 m c (n + 1) hn = _ from outsAt0_C m c ⟨n + 1, hn⟩ h0 h1]
      dsimp only
      refine (congrFun (Cert.KernelBody.carried_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _)
        (fun h => h0 ((hcond0_0 ⟨n + 1, hn⟩).mp h)) ((hcond0_1 ⟨n + 1, hn⟩).mpr h1) (featBlk m c ⟨n + 1, hn⟩) (idBlk m c ⟨n + 1, hn⟩) (wrBlk m c ⟨n + 1, hn⟩) (brBlk m c ⟨n + 1, hn⟩)
        (outsAt0 m c n (Nat.lt_of_succ_lt hn)).2) (ix2 d g)).trans ?_
      rw [Cert.KernelPayloads.accum_apply, blockSum m c ⟨n + 1, hn⟩ d g, ih]
    · rw [show outsAt0 m c (n + 1) hn = _ from outsAt0_B m c ⟨n + 1, hn⟩ h0 h1]
      dsimp only
      refine (congrFun (Cert.KernelBody.carried_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _)
        (fun h => h0 ((hcond0_0 ⟨n + 1, hn⟩).mp h)) (fun h => h1 ((hcond0_1 ⟨n + 1, hn⟩).mp h)) (featBlk m c ⟨n + 1, hn⟩) (idBlk m c ⟨n + 1, hn⟩) (wrBlk m c ⟨n + 1, hn⟩) (brBlk m c ⟨n + 1, hn⟩)
        (outsAt0 m c n (Nat.lt_of_succ_lt hn)).2) (ix2 d g)).trans ?_
      rw [Cert.KernelPayloads.accum_apply, blockSum m c ⟨n + 1, hn⟩ d g, ih]

/-! ## The total after the last point, over the nodes -/

/-- A graph's number, as a 32-bit word, reads back signed as the number. -/
theorem toInt_ofNat_graph (g : Fin 512) : (BitVec.ofNat 32 g.val).toInt = (g.val : ℤ) := by
  have hg := g.isLt
  rw [BitVec.toInt_eq_toNat_cond, BitVec.toNat_ofNat, Nat.mod_eq_of_lt (by omega)]
  split <;> omega

/-- The one-hot weight for graph g asks whether the id word reads g. -/
theorem hot_graph (b : BitVec 32) (g : Fin 512) :
    hot b g.val = if b.toInt = (g.val : ℤ) then 1 else 0 := by
  unfold Cert.KernelPayloads.hot
  by_cases h : b = BitVec.ofNat 32 g.val
  · rw [if_pos h, if_pos (h ▸ toInt_ofNat_graph g)]
  · rw [if_neg h, if_neg fun e => h (BitVec.eq_of_toInt_eq (e.trans (toInt_ofNat_graph g).symm))]

/-- A column below 200000 is a node: it contributes its feature when its id reads g. -/
theorem term_node (c : Dev nD) (d : Fin 2) (g : Fin 512) (n : Fin 200000) :
    term m c d g n.val
      = if ((m ((c.tc : Thread nD τ).loc main_arg2) : S200000.Idx → BitVec 32) (ix1 n)).toInt = (g.val : ℤ)
        then Cert.KernelHost.feats m c (ix2 n d) else 0 := by
  have hn : n.val < 204800 := by have := n.isLt; omega
  have e1 := Cert.KernelHost.feat_apply m c d (⟨n.val, hn⟩ : Fin 204800)
  have e2 := Cert.KernelHost.ids_apply m c (⟨n.val, hn⟩ : Fin 204800)
  rw [dif_pos (show (⟨n.val, hn⟩ : Fin 204800).val < 200000 from n.isLt)] at e1 e2
  rw [term, dif_pos hn]
  dsimp only [featArr, idArr]
  rw [e1, e2, hot_graph]
  show _ = if ((m ((c.tc : Thread nD τ).loc main_arg2) : S200000.Idx → BitVec 32) (ix1 (⟨n.val, n.isLt⟩ : Fin 200000))).toInt = (g.val : ℤ)
        then Cert.KernelHost.feats m c (ix2 (⟨n.val, n.isLt⟩ : Fin 200000) d) else 0
  split
  · rw [mul_one]
  · rw [mul_zero]

/-- A column from 200000 on is padding: its feature is zero and it contributes nothing. -/
theorem term_pad (c : Dev nD) (d : Fin 2) (g : Fin 512) (n : ℕ) (hn : 200000 ≤ n) : term m c d g n = 0 := by
  rw [term]
  split
  · rename_i h
    have e1 := Cert.KernelHost.feat_apply m c d (⟨n, h⟩ : Fin 204800)
    rw [dif_neg (show ¬(⟨n, h⟩ : Fin 204800).val < 200000 from by dsimp only; omega)] at e1
    dsimp only [featArr]
    rw [e1, zero_mul]
  · rfl

/-- So the 25 blocks' contributions are the pooled feature: the sum over the 200000 nodes. -/
theorem total_eq (c : Dev nD) (d : Fin 2) (g : Fin 512) :
    ∑ t ∈ Finset.range 25, ∑ l : Fin 8192, term m c d g (8192 * t + l.val)
      = Cert.PoolSpec.pooled (Cert.KernelHost.feats m c) (m ((c.tc : Thread nD τ).loc main_arg2)) g.val d := by
  rw [Idealize.ShloMosaic.BlockSums.sum_blocks_pad (term m c d g) 8192 25 200000 4800 (by norm_num) (term_pad m c d g)]
  unfold Cert.PoolSpec.pooled
  exact Finset.sum_congr rfl fun n _ => term_node m c d g n

/-! ## The output block, the result array, the result -/

/-- The head's value for graph g. -/
def headAt (c : Dev nD) (g : Fin 512) : EReal :=
  Cert.PoolSpec.head (Cert.KernelHost.feats m c) (m ((c.tc : Thread nD τ).loc main_arg2))
    (m ((c.tc : Thread nD τ).loc main_arg9)) (m ((c.tc : Thread nD τ).loc main_arg10)) (ix1 g)

/-- The [1, 512] array the region leaves: the head's values in a row. -/
def poolOut (c : Dev nD) : S1x512.Idx → EReal := fun j => headAt m c (⟨(j 1).val, idx2_lt1 j⟩ : Fin 512)

theorem h24 : 24 < cfg0.N := by rw [show cfg0.N = 25 from N_0]; omega

/-- What the last point stores in the output block is that row: the weights against the total over all 25 blocks, which
    is the pooled feature, plus the bias. -/
theorem outBlock_eq (c : Dev nD) : ((outsAt0 m c 24 h24).1 : S1x512.Idx → EReal) = poolOut m c := by
  funext j
  obtain ⟨z, g, rfl⟩ : ∃ (z : Fin 1) (g : Fin 512), j = ix2 z g := ⟨j 0, j 1, eq_ix2 j⟩
  obtain rfl : z = 0 := Subsingleton.elim _ _
  have h0 : ¬(⟨24, h24⟩ : Fin cfg0.N).val % 25 = 0 := by dsimp only; omega
  have h1 : (⟨24, h24⟩ : Fin cfg0.N).val % 25 = 24 := by dsimp only
  rw [show outsAt0 m c 24 h24 = _ from outsAt0_C m c ⟨24, h24⟩ h0 h1]
  dsimp only
  refine (congrFun (Cert.KernelBody.out_C (F := Ideal) c (grid0.coords ⟨24, h24⟩) (ms0_0 ⟨24, h24⟩) (hs0_0 ⟨24, h24⟩) (ms0_1 ⟨24, h24⟩) (hs0_1 ⟨24, h24⟩) (ms0_2 ⟨24, h24⟩) (hs0_2 ⟨24, h24⟩) (ms0_3 ⟨24, h24⟩) (hs0_3 ⟨24, h24⟩) (ms0_4 ⟨24, h24⟩) (hs0_4 ⟨24, h24⟩) scM0_0 (Memref.isWhole_whole _)
    (fun h => h0 ((hcond0_0 ⟨24, h24⟩).mp h)) ((hcond0_1 ⟨24, h24⟩).mpr h1) (featBlk m c ⟨24, h24⟩) (idBlk m c ⟨24, h24⟩) (wrBlk m c ⟨24, h24⟩) (brBlk m c ⟨24, h24⟩)
    (outsAt0 m c 23 (Nat.lt_of_succ_lt h24)).2) (ix2 (0 : Fin 1) g)).trans ?_
  rw [Cert.KernelPayloads.head_apply]
  have hacc : ∀ d : Fin 2, k0_pay2 (F := Ideal) (idBlk m c ⟨24, h24⟩) (featBlk m c ⟨24, h24⟩)
      (outsAt0 m c 23 (Nat.lt_of_succ_lt h24)).2 (ix2 d g)
        = Cert.PoolSpec.pooled (Cert.KernelHost.feats m c) (m ((c.tc : Thread nD τ).loc main_arg2)) g.val d := fun d => by
    rw [Cert.KernelPayloads.accum_apply, carried_eq m c 23 (Nat.lt_of_succ_lt h24) d g, blockSum m c ⟨24, h24⟩ d g,
      ← total_eq m c d g, Finset.sum_range_succ _ 24]
  show _ = headAt m c g
  unfold headAt Cert.PoolSpec.head
  refine congrArg₂ (· + ·) (Finset.sum_congr rfl fun d _ => ?_) ?_
  · rw [hacc d, wrBlk_apply m c ⟨24, h24⟩ d, mul_comm]
    dsimp only [wrArr]
    rw [V_main_arg9 m c]
  · rw [brBlk_apply m c ⟨24, h24⟩]
    exact Cert.KernelHost.bias_apply m c

/-- The output window's one block sits at the origin. -/
theorem idx_out : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The one write-back, after the last point, writes that row: the output's block is the whole [1, 512] array. -/
theorem flushed_eq (c : Dev nD) (t : Fin cfg0.N) (hf : (cfg0.win 4).flush t = true) :
    (dats m 0 c).flushed 4 t = ((cfg0.win 4).blk t).view.read (Elt Ideal) (poolOut m c) := by
  have h25 : cfg0.N = 25 := N_0
  have ht : t.val = 24 := by have h1 := (flush0_4 t).mp hf; have h2 := t.isLt; omega
  obtain rfl : t = ⟨24, h24⟩ := Fin.ext ht
  show (cfg0.win 4).cut (grid0.coords ⟨24, h24⟩) ((dats m 0 c).after 4 ⟨24, h24⟩) = _
  rw [after0_4]
  show (cfg0.win 4).cut (grid0.coords ⟨24, h24⟩) (outsAt0 m c 24 h24).1 = _
  rw [outBlock_eq m c]
  have hz' : (fun a => win0_4.index ⟨24, h24⟩ a * main_v87.ty.shape.size a) = fun _ => 0 := funext fun a => by
    match a with
    | ⟨0, _⟩ => show win0_4.index ⟨24, h24⟩ 0 * 1 = 0; rw [(idx_out ⟨24, h24⟩).1]
    | ⟨1, _⟩ => show win0_4.index ⟨24, h24⟩ 1 * 512 = 0; rw [(idx_out ⟨24, h24⟩).2]
  exact (Memref.read_access_unit_zero (Elt Ideal) main_v87 hz' (fun a => by rw [congrFun hz' a]; simp) (poolOut m c)).symm

/-- So the result array of the region ends holding that row. -/
theorem final_out (c : Dev nD) : (dats m 0 c).arrAt 4 cfg0.N = poolOut m c :=
  (dats m 0 c).arrAt_eq_of_cover 4 (poolOut m c) (flushed_eq m c) fun i =>
    ⟨⟨24, h24⟩, (flush0_4 ⟨24, h24⟩).mpr (by dsimp only), by
      show i ∈ ((View.whole main_v87).slice (win0_4.rect ⟨24, h24⟩)).set
      rw [View.set_slice_whole, Rect.mem_set_unit]
      intro a
      have h0 : (i 0 : Nat) < 1 := (i 0).isLt
      have h1 : (i 1 : Nat) < 512 := (i 1).isLt
      match a with
      | ⟨0, _⟩ =>
        show win0_4.index ⟨24, h24⟩ 0 * 1 ≤ (i 0 : Nat) ∧ (i 0 : Nat) < win0_4.index ⟨24, h24⟩ 0 * 1 + 1
        rw [(idx_out ⟨24, h24⟩).1]; omega
      | ⟨1, _⟩ =>
        show win0_4.index ⟨24, h24⟩ 1 * 512 ≤ (i 1 : Nat) ∧ (i 1 : Nat) < win0_4.index ⟨24, h24⟩ 1 * 512 + 512
        rw [(idx_out ⟨24, h24⟩).2]; omega⟩

/-- The program's result: the row reshaped to [512], which is the pooled head. -/
theorem result_eq (c : Dev nD) :
    Pipeline.afterTail₀ cfgs (dats m) 0 (V0 m) [hostOps1] c main_v88
      = (Cert.PoolSpec.head (Cert.KernelHost.feats m c) (m ((c.tc : Thread nD τ).loc main_arg2))
          (m ((c.tc : Thread nD τ).loc main_arg9)) (m ((c.tc : Thread nD τ).loc main_arg10)) : S512.Idx → EReal) := by
  unfold Pipeline.afterTail₀
  show StableHlo.after hostOps1 _ (Proc.devRef .tc main_v88) = _
  after_results
  have hW : Pipeline.withArrays (cfgs 0).spec c (V0 m c) (fun w => (dats m 0 c).arrAt w (cfgs 0).N)
      (Proc.devRef .tc main_v87) = poolOut m c :=
    (Pipeline.withArrays_arr spec0 launch0.win.arr_inj c _ _ 4).trans (final_out m c)
  rw [hW]
  funext j
  obtain ⟨g, rfl⟩ : ∃ g : Fin 512, j = ix1 g := ⟨j 0, eq_ix1 j⟩
  show shapeCast S512 (poolOut m c) shapeCasts_S1x512_S512 (ix1 g) = _
  rw [shapeCast_apply (poolOut m c) shapeCasts_S1x512_S512 (ix1 g) (ix2 (0 : Fin 1) g)
    (by rw [Shape.rowMajor_val_two, Shape.rowMajor_val_one]; show 0 * 512 + g.val = g.val; omega)]
  rfl

/-- THE KERNEL'S RUN, READ: every weakly fair execution ends with the result buffer at the pooled head of the features
    the region found, and the arguments as launched. -/
theorem run : θ_run defs (onTc (τ := τ) (main (F := Ideal))) ⟨m, fun _ => 0, ρ⟩ (fun r => ∀ c : Dev nD,
      r.2.mem ((c.tc : Thread nD τ).loc main_v88)
        = (Cert.PoolSpec.head (Cert.KernelHost.feats m c) (m ((c.tc : Thread nD τ).loc main_arg2))
            (m ((c.tc : Thread nD τ).loc main_arg9)) (m ((c.tc : Thread nD τ).loc main_arg10)) : S512.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v88 (Pipeline.mem_restRefs_of main_v88 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 2).trans (((dats m 0 c).arrAt_in 2 rfl _).trans ((A_eq m c 2).trans (V_main_arg9 m c))),
      (((h c).2 main_arg10 (Pipeline.mem_restRefs_of main_arg10 (by decide) (by decide))).trans (W_main_arg10 m (dats m) c))⟩) (run_main m ρ)

end Cert.KernelPool

end
-- ==== Proof.PrefixEq.lean ====
/-
  The two programs' three layers are one function of the arguments.

  Line by line the kernel program's operations before its padding and the reference's operations before its pooling
  are the same: the source and destination index vectors with the self loops appended, the degrees by an accumulating
  scatter of ones, their inverse square roots where the degree is positive, the edge norm as the product of the two
  gathered values, and three times a 2 × 2 product, a gather of rows by source, the product with the norm as a column,
  an accumulating scatter by destination, a bias and a rectifier. Only the numbering of the intermediate buffers
  differs (the kernel program spreads the norm to a column once, the reference in each layer), and the reference passes
  its zero through an identity conversion first. So the contents the region finds in the third layer's output, opened to
  their composed term, are the reference's stage read as a function of the arguments; the comparison walks the two terms
  head by head and evaluates no operation, and it holds at every float instance.
-/
import proofs.«415151_j36129264894520_2_alg».proof.Proof.Gen.KernelIdeal.Frame.Runs
import proofs.«415151_j36129264894520_2_alg».proof.Proof.RefReadPatched

noncomputable section

namespace Cert.PrefixEq

open Idealize.ShloMosaic Idealize.ShloMosaic.TcCoe Idealize.SL.Sem Idealize.ShloMosaic.StableHlo
open Cert.KernelIdeal Cert.KernelIdeal.Gen

section AnyInstance

variable {F : FTy → Type} [FloatOps F]

set_option maxRecDepth 8192 in
set_option maxHeartbeats 8000000 in
/-- At any float instance: what the region finds in the third layer's output is the reference's third-layer stage of
    the same arguments. -/
theorem feats_eq_any (m : (ℓ : Loc nD τ sig) → Buf (Elt F) ℓ) (c : Dev nD) :
    V m c main_v81 = Cert.ReferenceIdeal.Read.val_main_v83 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  <;> rfl

end AnyInstance

/-- The same at the ideal values, where both sides are arrays of extended reals. -/
theorem feats_eq (m : (ℓ : Loc nD τ sig) → Buf (Elt Ideal) ℓ) (c : Dev nD) :
    (V m c main_v81 : S200000x2.Idx → EReal)
      = Cert.ReferenceIdeal.Read.val_main_v83 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  feats_eq_any m c

end Cert.PrefixEq

end
-- ==== Proof.lean ====
/-
  The certificate of a graph network's pooled head: three graph-convolution layers on the host, then global add pooling
  into 512 graphs and a linear head, which the kernel program computes in one Pallas region and the reference on the host.

  Both programs first run the same three layers (self loops, symmetric degree normalisation, a 2 × 2 product, a gather by
  source, a scatter-add by destination, a bias and a rectifier per layer) and arrive at features h : [200000, 2]; line by
  line they apply the same operations to the same arguments, so h is one function of the arguments on both sides, and it
  is never opened. What differs is the end. The reference scatters the rows of h into 512 rows by the graph ids
  (an id outside 0 … 511 is dropped), multiplies by the [2, 1] weights and adds the bias. The kernel program pads h and
  the ids to 204800 rows (features zero, ids 512, which is no graph), transposes, and walks 25 blocks of 8192 columns; at
  each it adds to a carried [2, 512] total the product of the block with the one-hot matrix of its ids, and at the last
  block it multiplies the weights into the total and adds the bias. At the ideal values both are, for graph g,
      Σ_d ( Σ_{n : id(n) reads g} h(n, d) ) · Wr(d) + br
  (`Cert.PoolSpec.head`): a one-hot weight is one or zero, x · 1 = x and x · 0 = 0 hold for every extended real, and a
  finite sum over a commutative monoid may be regrouped by blocks and have zero terms dropped; no finiteness of the
  inputs is used. The ideal pass rewrote nothing, so the preservation claim is trivial; the kernel's two frames are the
  generated ones; the reference's frame is its run with the result forgotten.
-/
import proofs.«415151_j36129264894520_2_alg».proof.Defs
import proofs.«415151_j36129264894520_2_alg».proof.Proof.Gen.Kernel
import proofs.«415151_j36129264894520_2_alg».proof.Proof.Gen.Kernel.Frame
import proofs.«415151_j36129264894520_2_alg».proof.Proof.Gen.KernelIdeal
import proofs.«415151_j36129264894520_2_alg».proof.Proof.Gen.KernelIdeal.Frame
import proofs.«415151_j36129264894520_2_alg».proof.Proof.Gen.ReferenceIdeal
import proofs.«415151_j36129264894520_2_alg».proof.Proof.Gen.Pre_finite_inputs
import proofs.«415151_j36129264894520_2_alg».proof.Proof.RefRunPatched
import proofs.«415151_j36129264894520_2_alg».proof.Proof.RefReadPatched
import proofs.«415151_j36129264894520_2_alg».proof.Proof.RefPool
import proofs.«415151_j36129264894520_2_alg».proof.Proof.KernelPool
import proofs.«415151_j36129264894520_2_alg».proof.Proof.PrefixEq
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the pooled head of the same third-layer features. -/
theorem algebraic : Cert.algebraic_KernelIdeal_ReferenceIdeal := by
  intro m ρ m' ρ' _ hagree
  refine ⟨fun c => (Cert.PoolSpec.head (Cert.KernelHost.feats m c) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))), Cert.KernelPool.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v91_eq, Cert.RefPool.result_eq, a0, a1, a2, a3, a4, a5, a6, a7, a8, a9, a10]
  exact congrArg (fun h => Cert.PoolSpec.head h (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (Cert.PrefixEq.feats_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
